-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v30) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x2000000 : Shape := ⟨2, ![2, 2000000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_
  bcast_S_S1x64 : S_.BroadcastsInDim S1x64 (![] : Fin 0 → Fin S1x64.rank)
  reducesTo_S1x64_S_d0_1 : S1x64.ReducesTo [0, 1] S_
  bcast_S_S1 : S_.BroadcastsInDim S1 (![] : Fin 0 → Fin S1.rank)
  reducesTo_S1_S_d0 : S1.ReducesTo [0] S_
  bcast_S_S2x2000000 : S_.BroadcastsInDim S2x2000000 (![] : Fin 0 → Fin S2x2000000.rank)
  reducesTo_S2x2000000_S_d0_1 : S2x2000000.ReducesTo [0, 1] S_

variable [Facts]

def fn_part2 {F : FTy → Type} [FloatOps F] (main_v28 : IVec S_ 1) (main_v33 : IVec S2x2000000 1) : IVec S_ 1 :=
  let main_c_12 : IVec S_ 1 := constantI S_ 1 1#1
  let main_v34 : IVec S_ 1 := (fun x v => Host.reduce IntOp.andi x v reducesTo_S2x2000000_S_d0_1 h_S_) main_v33 main_c_12
  let main_v35 : IVec S_ 1 := andi main_v28 main_v34
  main_v35

def fn_part1 {F : FTy → Type} [FloatOps F] (main_arg2 : IVec S2x2000000 32) (main_arg5 : FVec F S1x64 .f32) (main_arg6 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S1x64 .f32 := Host.absf main_arg5
  let main_cst_6 : FVec F S_ .f32 := constant S_ .f32 0x7F800000#32
  let main_v20 : FVec F S1x64 .f32 := broadcastInDim S1x64 ![] bcast_S_S1x64 main_cst_6
  let main_v21 : IVec S1x64 1 := cmpf .olt main_v19 main_v20
  let main_c_7 : IVec S_ 1 := constantI S_ 1 1#1
  let main_v22 : IVec S_ 1 := (fun x v => Host.reduce IntOp.andi x v reducesTo_S1x64_S_d0_1 h_S_) main_v21 main_c_7
  let main_v23 : IVec S_ 1 := andi main_v18 main_v22
  let main_v24 : FVec F S1 .f32 := Host.absf main_arg6
  let main_cst_8 : FVec F S_ .f32 := constant S_ .f32 0x7F800000#32
  let main_v25 : FVec F S1 .f32 := broadcastInDim S1 ![] bcast_S_S1 main_cst_8
  let main_v26 : IVec S1 1 := cmpf .olt main_v24 main_v25
  let main_c_9 : IVec S_ 1 := constantI S_ 1 1#1
  let main_v27 : IVec S_ 1 := (fun x v => Host.reduce IntOp.andi x v reducesTo_S1_S_d0 h_S_) main_v26 main_c_9
  let main_v28 : IVec S_ 1 := andi main_v23 main_v27
  let main_c_10 : IVec S_ 32 := constantI S_ 32 4294867296#32
  let main_v29 : IVec S2x2000000 32 := broadcastInDim S2x2000000 ![] bcast_S_S2x2000000 main_c_10
  let main_v30 : IVec S2x2000000 1 := cmpi .sge main_arg2 main_v29
  let main_c_11 : IVec S_ 32 := constantI S_ 32 100000#32
  let main_v31 : IVec S2x2000000 32 := broadcastInDim S2x2000000 ![] bcast_S_S2x2000000 main_c_11
  let main_v32 : IVec S2x2000000 1 := cmpi .slt main_arg2 main_v31
  let main_v33 : IVec S2x2000000 1 := andi main_v30 main_v32
  fn_part2 (F := F) main_v28 main_v33

def fn {F : FTy → Type} [FloatOps F] (main_arg0 : FVec F S100000x64 .f32) (main_arg1 : FVec F S100000x64 .f32) (main_arg2 : IVec S2x2000000 32) (main_arg3 : FVec F S64x128 .f32) (main_arg4 : FVec F S64 .f32) (main_arg5 : FVec F S1x64 .f32) (main_arg6 : FVec F S1 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S100000x64 .f32 := Host.absf main_arg1
  let main_cst_0 : FVec F S_ .f32 := constant S_ .f32 0x7F800000#32
  let main_v5 : FVec F S100000x64 .f32 := broadcastInDim S100000x64 ![] bcast_S_S100000x64 main_cst_0
  let main_v6 : IVec S100000x64 1 := cmpf .olt main_v4 main_v5
  let main_c_1 : IVec S_ 1 := constantI S_ 1 1#1
  let main_v7 : IVec S_ 1 := (fun x v => Host.reduce IntOp.andi x v reducesTo_S100000x64_S_d0_1 h_S_) main_v6 main_c_1
  let main_v8 : IVec S_ 1 := andi main_v3 main_v7
  let main_v9 : FVec F S64x128 .f32 := Host.absf main_arg3
  let main_cst_2 : FVec F S_ .f32 := constant S_ .f32 0x7F800000#32
  let main_v10 : FVec F S64x128 .f32 := broadcastInDim S64x128 ![] bcast_S_S64x128 main_cst_2
  let main_v11 : IVec S64x128 1 := cmpf .olt main_v9 main_v10
  let main_c_3 : IVec S_ 1 := constantI S_ 1 1#1
  let main_v12 : IVec S_ 1 := (fun x v => Host.reduce IntOp.andi x v reducesTo_S64x128_S_d0_1 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg2 main_arg5 main_arg6 main_v13 main_v16
-- ==== Kernel.lean ====
abbrev S100000x64 : Shape := ⟨2, ![100000, 64]⟩
abbrev S2x2000000 : Shape := ⟨2, ![2, 2000000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S1x1 : Shape := ⟨2, ![1, 1]⟩
abbrev S2000000x64 : Shape := ⟨2, ![2000000, 64]⟩
abbrev S2007040x64 : Shape := ⟨2, ![2007040, 64]⟩
abbrev S64x64 : Shape := ⟨2, ![64, 64]⟩
abbrev S2007040 : Shape := ⟨1, ![2007040]⟩
abbrev S8192x64 : Shape := ⟨2, ![8192, 64]⟩
abbrev S8192 : Shape := ⟨1, ![8192]⟩

abbrev nBuf : Space → Nat
  | .hbm => 72
  | .vmem => 11
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x2000000, .i32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S1x2000000, .i32⟩
  | .hbm, ⟨8, _⟩ => ⟨S2000000, .i32⟩
  | .hbm, ⟨9, _⟩ => ⟨S1x2000000, .i32⟩
  | .hbm, ⟨10, _⟩ => ⟨S2000000, .i32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S1, .i32⟩
  | .hbm, ⟨20, _⟩ => ⟨S_, .i32⟩
  | .hbm, ⟨21, _⟩ => ⟨S2000000x1, .i32⟩
  | .hbm, ⟨22, _⟩ => ⟨S2000000x1, .i1⟩
  | .hbm, ⟨23, _⟩ => ⟨S1x1, .i32⟩
  | .hbm, ⟨24, _⟩ => ⟨S2000000x1, .i32⟩
  | .hbm, ⟨25, _⟩ => ⟨S2000000x1, .i1⟩
  | .hbm, ⟨26, _⟩ => ⟨S2000000x1, .i1⟩
  | .hbm, ⟨27, _⟩ => ⟨S_, .i1⟩
  | .hbm, ⟨28, _⟩ => ⟨S2000000, .i1⟩
  | .hbm, ⟨29, _⟩ => ⟨S2000000x64, .f32⟩
  | .hbm, ⟨30, _⟩ => ⟨S2000000x64, .i1⟩
  | .hbm, ⟨31, _⟩ => ⟨S_, .f32⟩
  | .hbm, ⟨32, _⟩ => ⟨S2000000x64, .f32⟩
  | .hbm, ⟨33, _⟩ => ⟨S2000000x64, .f32⟩
  | .hbm, ⟨34, _⟩ => ⟨S_, .i32⟩
  | .hbm, ⟨35, _⟩ => ⟨S2000000, .i32⟩
  | .hbm, ⟨36, _⟩ => ⟨S2000000, .i1⟩
  | .hbm, ⟨37, _⟩ => ⟨S_, .i32⟩
  | .hbm, ⟨38, _⟩ => ⟨S2000000, .i32⟩
  | .hbm, ⟨39, _⟩ => ⟨S2000000, .i32⟩
  | .hbm, ⟨40, _⟩ => ⟨S2000000, .i32⟩
  | .hbm, ⟨41, _⟩ => ⟨S2000000x1, .i32⟩
  | .hbm, ⟨42, _⟩ => ⟨S1, .i32⟩
  | .hbm, ⟨43, _⟩ => ⟨S_, .i32⟩
  | .hbm, ⟨44, _⟩ => ⟨S2000000x1, .i32⟩
  | .hbm, ⟨45, _⟩ => ⟨S2000000x1, .i1⟩
  | .hbm, ⟨46, _⟩ => ⟨S1x1, .i32⟩
  | .hbm, ⟨47, _⟩ => ⟨S2000000x1, .i32⟩
  | .hbm, ⟨48, _⟩ => ⟨S2000000x1, .i1⟩
  | .hbm, ⟨49, _⟩ => ⟨S2000000x1, .i1⟩
  | .hbm, ⟨50, _⟩ => ⟨S_, .i1⟩
  | .hbm, ⟨51, _⟩ => ⟨S2000000, .i1⟩
  | .hbm, ⟨52, _⟩ => ⟨S2000000x64, .f32⟩
  | .hbm, ⟨53, _⟩ => ⟨S2000000x64, .i1⟩
  | .hbm, ⟨54, _⟩ => ⟨S_, .f32⟩
  | .hbm, ⟨55, _⟩ => ⟨S2000000x64, .f32⟩
  | .hbm, ⟨56, _⟩ => ⟨S2000000x64, .f32⟩
  | .hbm, ⟨57, _⟩ => ⟨S_, .i32⟩
  | .hbm, ⟨58, _⟩ => ⟨S_, .f32⟩
  | .hbm, ⟨59, _⟩ => ⟨S2007040x64, .f32⟩
  | .hbm, ⟨60, _⟩ => ⟨S_, .i32⟩
  | .hbm, ⟨61, _⟩ => ⟨S_, .f32⟩
  | .hbm, ⟨62, _⟩ => ⟨S2007040x64, .f32⟩
  | .hbm, ⟨63, _⟩ => ⟨S64x64, .f32⟩
  | .hbm, ⟨64, _⟩ => ⟨S64x64, .f32⟩
  | .hbm, ⟨65, _⟩ => ⟨S64x64, .bf16⟩
  | .hbm, ⟨66, _⟩ => ⟨S64x64, .f32⟩
  | .hbm, ⟨67, _⟩ => ⟨S64x64, .f32⟩
  | .hbm, ⟨68, _⟩ => ⟨S64x64, .bf16⟩
  | .hbm, ⟨69, _⟩ => ⟨S64, .f32⟩
  | .hbm, ⟨70, _⟩ => ⟨S2007040, .f32⟩
  | .hbm, ⟨71, _⟩ => ⟨S2000000, .f32⟩
  | .local _ .vmem, ⟨0, _⟩ => ⟨S8192x64, .f32⟩
  | .local _ .vmem, ⟨1, _⟩ => ⟨S8192x64, .f32⟩
  | .local _ .vmem, ⟨2, _⟩ => ⟨S8192x64, .f32⟩
  | .local _ .vmem, ⟨3, _⟩ => ⟨S8192x64, .f32⟩
  | .local _ .vmem, ⟨4, _⟩ => ⟨S64x64, .bf16⟩
  | .local _ .vmem, ⟨5, _⟩ => ⟨S64x64, .bf16⟩
  | .local _ .vmem, ⟨6, _⟩ => ⟨S64, .f32⟩
  | .local _ .vmem, ⟨7, _⟩ => ⟨S64, .f32⟩
  | .local _ .vmem, ⟨8, _⟩ => ⟨S1, .f32⟩
  | .local _ .vmem, ⟨9, _⟩ => ⟨S8192, .f32⟩
  | .local _ .vmem, ⟨10, _⟩ => ⟨S8192, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_call0_c : Ref sig .tc := ⟨.hbm, 11, rfl⟩
abbrev main_call0_v0 : Ref sig .tc := ⟨.hbm, 12, rfl⟩
abbrev main_call0_v1 : Ref sig .tc := ⟨.hbm, 13, rfl⟩
abbrev main_call0_c_0 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_c_1 : Ref sig .tc := ⟨.hbm, 19, rfl⟩
abbrev main_call0_c_2 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_v9 : Ref sig .tc := ⟨.hbm, 24, rfl⟩
abbrev main_call0_v10 : Ref sig .tc := ⟨.hbm, 25, rfl⟩
abbrev main_call0_v11 : Ref sig .tc := ⟨.hbm, 26, rfl⟩
abbrev main_call0_c_3 : Ref sig .tc := ⟨.hbm, 27, rfl⟩
abbrev main_call0_v12 : Ref sig .tc := ⟨.hbm, 28, rfl⟩
abbrev main_call0_v13 : Ref sig .tc := ⟨.hbm, 29, rfl⟩
abbrev main_call0_v14 : Ref sig .tc := ⟨.hbm, 30, rfl⟩
abbrev main_call0_cst : Ref sig .tc := ⟨.hbm, 31, rfl⟩
abbrev main_call0_v15 : Ref sig .tc := ⟨.hbm, 32, rfl⟩
abbrev main_v4 : Ref sig .tc := ⟨.hbm, 33, rfl⟩
abbrev main_call1_c : Ref sig .tc := ⟨.hbm, 34, rfl⟩
abbrev main_call1_v0 : Ref sig .tc := ⟨.hbm, 35, rfl⟩
abbrev main_call1_v1 : Ref sig .tc := ⟨.hbm, 36, rfl⟩
abbrev main_call1_c_0 : Ref sig .tc := ⟨.hbm, 37, rfl⟩
abbrev main_call1_v2 : Ref sig .tc := ⟨.hbm, 38, rfl⟩
abbrev main_call1_v3 : Ref sig .tc := ⟨.hbm, 39, rfl⟩
abbrev main_call1_v4 : Ref sig .tc := ⟨.hbm, 40, rfl⟩
abbrev main_call1_v5 : Ref sig .tc := ⟨.hbm, 41, rfl⟩
abbrev main_call1_c_1 : Ref sig .tc := ⟨.hbm, 42, rfl⟩
abbrev main_call1_c_2 : Ref sig .tc := ⟨.hbm, 43, rfl⟩
abbrev main_call1_v6 : Ref sig .tc := ⟨.hbm, 44, rfl⟩
abbrev main_call1_v7 : Ref sig .tc := ⟨.hbm, 45, rfl⟩
abbrev main_call1_v8 : Ref sig .tc := ⟨.hbm, 46, rfl⟩
abbrev main_call1_v9 : Ref sig .tc := ⟨.hbm, 47, rfl⟩
abbrev main_call1_v10 : Ref sig .tc := ⟨.hbm, 48, rfl⟩
abbrev main_call1_v11 : Ref sig .tc := ⟨.hbm, 49, rfl⟩
abbrev main_call1_c_3 : Ref sig .tc := ⟨.hbm, 50, rfl⟩
abbrev main_call1_v12 : Ref sig .tc := ⟨.hbm, 51, rfl⟩
abbrev main_call1_v13 : Ref sig .tc := ⟨.hbm, 52, rfl⟩
abbrev main_call1_v14 : Ref sig .tc := ⟨.hbm, 53, rfl⟩
abbrev main_call1_cst : Ref sig .tc := ⟨.hbm, 54, rfl⟩
abbrev main_call1_v15 : Ref sig .tc := ⟨.hbm, 55, rfl⟩
abbrev main_v5 : Ref sig .tc := ⟨.hbm, 56, rfl⟩
abbrev main_c : Ref sig .tc := ⟨.hbm, 57, rfl⟩
abbrev main_call2_v0 : Ref sig .tc := ⟨.hbm, 58, rfl⟩
abbrev main_v6 : Ref sig .tc := ⟨.hbm, 59, rfl⟩
abbrev main_c_0 : Ref sig .tc := ⟨.hbm, 60, rfl⟩
abbrev main_call3_v0 : Ref sig .tc := ⟨.hbm, 61, rfl⟩
abbrev main_v7 : Ref sig .tc := ⟨.hbm, 62, rfl⟩
abbrev main_v8 : Ref sig .tc := ⟨.hbm, 63, rfl⟩
abbrev main_v9 : Ref sig .tc := ⟨.hbm, 64, rfl⟩
abbrev main_v10 : Ref sig .tc := ⟨.hbm, 65, rfl⟩
abbrev main_v11 : Ref sig .tc := ⟨.hbm, 66, rfl⟩
abbrev main_v12 : Ref sig .tc := ⟨.hbm, 67, rfl⟩
abbrev main_v13 : Ref sig .tc := ⟨.hbm, 68, rfl⟩
abbrev main_v14 : Ref sig .tc := ⟨.hbm, 69, rfl⟩
abbrev main_v15 : Ref sig .tc := ⟨.hbm, 70, rfl⟩
abbrev main_v16 : Ref sig .tc := ⟨.hbm, 71, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![245], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S8192x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x64 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S8192 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  bcast_S_S2000000x1 : S_.BroadcastsInDim S2000000x1 (![] : Fin 0 → Fin S2000000x1.rank)
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  reducesTo_S2000000x1_S2000000_d1 : S2000000x1.ReducesTo [1] S2000000
  h_S_ : 0 < S_.numel
  bcast_S2000000_S2000000x64_0 : S2000000.BroadcastsInDim S2000000x64 (![0] : Fin 1 → Fin S2000000x64.rank)
  bcast_S_S2000000x64 : S_.BroadcastsInDim S2000000x64 (![] : Fin 0 → Fin S2000000x64.rank)
  pads_S2000000x64_S2007040x64_070400_000 : S2000000x64.Pads (![0, 0] : Fin 2 → Nat) ![7040, 0] ![0, 0] S2007040x64
  slices_S64x128_S64x64_0_0 : S64x128.Slices ![0, 0] S64x64
  transposes_S64x64_S64x64_1_0 : S64x64.Transposes [1, 0] S64x64
  bitsLt_bf16_f32 : FTy.bits .bf16 < FTy.bits .f32
  slices_S64x128_S64x64_0_64 : S64x128.Slices ![0, 64] S64x64
  shapeCasts_S1x64_S64 : S1x64.ShapeCasts S64
  inb_S8192x64_S8192x64_0_0 : ∀ a, (![0, 0] : Fin 2 → Nat) a + S8192x64.size a ≤ S8192x64.size a
  h_S8192x64 : 0 < S8192x64.numel
  shapeCasts_S8192x64_S8192x64 : S8192x64.ShapeCasts S8192x64
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S8192x64 : S1x64.Broadcasts S8192x64
  shapeCasts_S64_S64 : S64.ShapeCasts S64
  reduces_S8192x64_S8192 : S8192x64.Reduces [1] S8192
  inb_S1_S1_0 : ∀ a, (![0] : Fin 1 → Nat) a + S1.size a ≤ S1.size a
  h_S1 : 0 < S1.numel
  broadcasts_S1_S8192 : S1.Broadcasts S8192
  inb_S8192_S8192_0 : ∀ a, (![0] : Fin 1 → Nat) a + S8192.size a ≤ S8192.size a
  h_S8192 : 0 < S8192.numel
  slices_S2007040_S2000000_0 : S2007040.Slices ![0] S2000000
  gather_S100000x64_S2000000x1_S2000000x64_1_0_n_n_0_1_164_wf : GatherDims.WF S100000x64 S2000000x1 S2000000x64 [1] [0] [] [0] [] 1 ![1, 64]
  dot_S8192x64_S64x64_S8192x64_1_0_0_1_n_n_wf : DotDims.WF S8192x64 S64x64 S8192x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x64.size a ≤ S2007040x64.size a
  hwx0_0 : ∀ i : grid0.Coords, EltTy.bits .f32 = 32 ∨ (Rect.block (s := S2007040x64) S8192x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x64.size a ≤ S2007040x64.size a
  hwx0_1 : ∀ i : grid0.Coords, EltTy.bits .f32 = 32 ∨ (Rect.block (s := S2007040x64) S8192x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .bf16 = 32 ∨ (Rect.block (s := S64x64) S64x64.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x64.size a ≤ S64x64.size a
  hwx0_3 : ∀ i : grid0.Coords, EltTy.bits .bf16 = 32 ∨ (Rect.block (s := S64x64) S64x64.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64.size a ≤ S64.size a
  hwx0_5 : ∀ i : grid0.Coords, EltTy.bits .f32 = 32 ∨ (Rect.block (s := S64) S64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1.size a ≤ S1.size a
  hwx0_6 : ∀ i : grid0.Coords, EltTy.bits .f32 = 32 ∨ (Rect.block (s := S1) S1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S8192.size a ≤ S2007040.size a
  hwx0_7 : ∀ i : grid0.Coords, EltTy.bits .f32 = 32 ∨ (Rect.block (s := S2007040) S8192.size (cc0_transform_7 i) (hinb0_7 i)).WholeWords (EltTy.packing .f32)

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S8192x64_S64x64_S8192x64_1_0_0_1_n_n : DotDims S8192x64 S64x64 S8192x64 where
  lhsContracting := [1]
  rhsContracting := [0]
  lhsNonContracting := [0]
  rhsNonContracting := [1]
  lhsBatch := []
  rhsBatch := []
  wf := dot_S8192x64_S64x64_S8192x64_1_0_0_1_n_n_wf

abbrev win0_0 : Pipeline.Window sig grid0 :=
  Pipeline.Window.ofSpec (Memref.whole main_v6) S8192x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S8192x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S64x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v14) S64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v15) S8192.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S100000x64 : Shape := ⟨2, ![100000, 64]⟩
abbrev S2x2000000 : Shape := ⟨2, ![2, 2000000]⟩
abbrev S64x128 : Shape := ⟨2, ![64, 128]⟩
abbrev S64 : Shape := ⟨1, ![64]⟩
abbrev S1x64 : Shape := ⟨2, ![1, 64]⟩
abbrev S1 : Shape := ⟨1, ![1]⟩
abbrev S1x2000000 : Shape := ⟨2, ![1, 2000000]⟩
abbrev S2000000 : Shape := ⟨1, ![2000000]⟩
abbrev S_ : Shape := ⟨0, ![]⟩
abbrev S2000000x1 : Shape := ⟨2, ![2000000, 1]⟩
abbrev S2000000x64 : Shape := ⟨2, ![2000000, 64]⟩
abbrev S2000000x128 : Shape := ⟨2, ![2000000, 128]⟩
abbrev S128x64 : Shape := ⟨2, ![128, 64]⟩
abbrev S64x1 : Shape := ⟨2, ![64, 1]⟩
abbrev S1x1 : Shape := ⟨2, ![1, 1]⟩

abbrev nBuf : Space → Nat
  | .hbm => 44
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S100000x64, .f32⟩
  | .hbm, ⟨2, _⟩ => ⟨S2x2000000, .i32⟩
  | .hbm, ⟨3, _⟩ => ⟨S64x128, .f32⟩
  | .hbm, ⟨4, _⟩ => ⟨S64, .f32⟩
  | .hbm, ⟨5, _⟩ => ⟨S1x64, .f32⟩
  | .hbm, ⟨6, _⟩ => ⟨S1, .f32⟩
  | .hbm, ⟨7, _⟩ => ⟨S1x2000000, .i32⟩
  | .hbm, ⟨8, _⟩ => ⟨S2000000, .i32⟩
  | .hbm, ⟨9, _⟩ => ⟨S1x2000000, .i32⟩
  | .hbm, ⟨10, _⟩ => ⟨S2000000, .i32⟩
  | .hbm, ⟨11, _⟩ => ⟨S_, .i32⟩
  | .hbm, ⟨12, _⟩ => ⟨S2000000, .i32⟩
  | .hbm, ⟨13, _⟩ => ⟨S2000000, .i1⟩
  | .hbm, ⟨14, _⟩ => ⟨S_, .i32⟩
  | .hbm, ⟨15, _⟩ => ⟨S2000000, .i32⟩
  | .hbm, ⟨16, _⟩ => ⟨S2000000, .i32⟩
  | .hbm, ⟨17, _⟩ => ⟨S2000000, .i32⟩
  | .hbm, ⟨18, _⟩ => ⟨S2000000x1, .i32⟩
  | .hbm, ⟨19, _⟩ => ⟨S2000000x64, .f32⟩
  | .hbm, ⟨20, _⟩ => ⟨S_, .i32⟩
  | .hbm, ⟨21, _⟩ => ⟨S2000000, .i32⟩
  | .hbm, ⟨22, _⟩ => ⟨S2000000, .i1⟩
  | .hbm, ⟨23, _⟩ => ⟨S_, .i32⟩
  | .hbm, ⟨24, _⟩ => ⟨S2000000, .i32⟩
  | .hbm, ⟨25, _⟩ => ⟨S2000000, .i32⟩
  | .hbm, ⟨26, _⟩ => ⟨S2000000, .i32⟩
  | .hbm, ⟨27, _⟩ => ⟨S2000000x1, .i32⟩
  | .hbm, ⟨28, _⟩ => ⟨S2000000x64, .f32⟩
  | .hbm, ⟨29, _⟩ => ⟨S2000000x128, .f32⟩
  | .hbm, ⟨30, _⟩ => ⟨S128x64, .f32⟩
  | .hbm, ⟨31, _⟩ => ⟨S2000000x64, .f32⟩
  | .hbm, ⟨32, _⟩ => ⟨S1x64, .f32⟩
  | .hbm, ⟨33, _⟩ => ⟨S2000000x64, .f32⟩
  | .hbm, ⟨34, _⟩ => ⟨S2000000x64, .f32⟩
  | .hbm, ⟨35, _⟩ => ⟨S_, .f32⟩
  | .hbm, ⟨36, _⟩ => ⟨S2000000x64, .f32⟩
  | .hbm, ⟨37, _⟩ => ⟨S2000000x64, .f32⟩
  | .hbm, ⟨38, _⟩ => ⟨S64x1, .f32⟩
  | .hbm, ⟨39, _⟩ => ⟨S2000000x1, .f32⟩
  | .hbm, ⟨40, _⟩ => ⟨S1x1, .f32⟩
  | .hbm, ⟨41, _⟩ => ⟨S2000000x1, .f32⟩
  | .hbm, ⟨42, _⟩ => ⟨S2000000x1, .f32⟩
  | .hbm, ⟨43, _⟩ => ⟨S2000000, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_c : Ref sig .tc := ⟨.hbm, 11, rfl⟩
abbrev main_v4 : Ref sig .tc := ⟨.hbm, 12, rfl⟩
abbrev main_v5 : Ref sig .tc := ⟨.hbm, 13, rfl⟩
abbrev main_c_0 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_c_1 : Ref sig .tc := ⟨.hbm, 20, rfl⟩
abbrev main_v11 : Ref sig .tc := ⟨.hbm, 21, rfl⟩
abbrev main_v12 : Ref sig .tc := ⟨.hbm, 22, rfl⟩
abbrev main_c_2 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_call0_cst : Ref sig .tc := ⟨.hbm, 35, rfl⟩
abbrev main_call0_v0 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩

abbrev nD : Nat := 1
abbrev τ : Topo := Topo.v7x

variable {F : FTy → Type} [FloatOps F]

class Facts₀ : Prop where
  slices_S2x2000000_S1x2000000_0_0 : S2x2000000.Slices ![0, 0] S1x2000000
  shapeCasts_S1x2000000_S2000000 : S1x2000000.ShapeCasts S2000000
  slices_S2x2000000_S1x2000000_1_0 : S2x2000000.Slices ![1, 0] S1x2000000
  bcast_S_S2000000 : S_.BroadcastsInDim S2000000 (![] : Fin 0 → Fin S2000000.rank)
  bcast_S2000000_S2000000x1_0 : S2000000.BroadcastsInDim S2000000x1 (![0] : Fin 1 → Fin S2000000x1.rank)
  concatenates_S2000000x64_S2000000x64_S2000000x128_d1 : Shape.Concatenates [S2000000x64, S2000000x64] S2000000x128 1
  transposes_S64x128_S128x64_1_0 : S64x128.Transposes [1, 0] S128x64
  bcast_S64_S1x64_1 : S64.BroadcastsInDim S1x64 (![1] : Fin 1 → Fin S1x64.rank)
  bcast_S1x64_S2000000x64_0_1 : S1x64.BroadcastsInDim S2000000x64 (![0, 1] : Fin 2 → Fin S2000000x64.rank)
  bcast_S_S2000000x64 : S_.BroadcastsInDim S2000000x64 (![] : Fin 0 → Fin S2000000x64.rank)
  transposes_S1x64_S64x1_1_0 : S1x64.Transposes [1, 0] S64x1
  bcast_S1_S1x1_1 : S1.BroadcastsInDim S1x1 (![1] : Fin 1 → Fin S1x1.rank)
  bcast_S1x1_S2000000x1_0_1 : S1x1.BroadcastsInDim S2000000x1 (![0, 1] : Fin 2 → Fin S2000000x1.rank)
  shapeCasts_S2000000x1_S2000000 : S2000000x1.ShapeCasts S2000000
  gather_S100000x64_S2000000x1_S2000000x64_1_0_n_n_0_1_164_wf : GatherDims.WF S100000x64 S2000000x1 S2000000x64 [1] [0] [] [0] [] 1 ![1, 64]
  dot_S2000000x128_S128x64_S2000000x64_1_0_0_1_n_n_wf : DotDims.WF S2000000x128 S128x64 S2000000x64 [1] [0] [0] [1] [] []
  dot_S2000000x64_S64x1_S2000000x1_1_0_0_1_n_n_wf : DotDims.WF S2000000x64 S64x1 S2000000x1 [1] [0] [0] [1] [] []

variable [Facts₀]

def gather_S100000x64_S2000000x1_S2000000x64_1_0_n_n_0_1_164 : GatherDims S100000x64 S2000000x1 S2000000x64 where
  offsetDims := [1]
  collapsedSliceDims := [0]
  operandBatchingDims := []
  startIndicesBatchingDims := []
  startIndexMap := [0]
  indexVectorDim := 1
  sliceSizes := ![1, 64]
  wf := gather_S100000x64_S2000000x1_S2000000x64_1_0_n_n_0_1_164_wf
def dot_S2000000x128_S128x64_S2000000x64_1_0_0_1_n_n : DotDims S2000000x128 S128x64 S2000000x64 where
  lhsContracting := [1]
  rhsContracting := [0]
  lhsNonContracting := [0]
  rhsNonContracting := [1]
  lhsBatch := []
  rhsBatch := []
  wf := dot_S2000000x128_S128x64_S2000000x64_1_0_0_1_n_n_wf
def dot_S2000000x64_S64x1_S2000000x1_1_0_0_1_n_n : DotDims S2000000x64 S64x1 S2000000x1 where
  lhsContracting := [1]
  rhsContracting := [0]
  lhsNonContracting := [0]
  rhsNonContracting := [1]
  lhsBatch := []
  rhsBatch := []
  wf := dot_S2000000x64_S64x1_S2000000x1_1_0_0_1_n_n_wf

class Facts : Prop extends Facts₀ where

variable [Facts]
-- ==== Proof.LibMatProd.lean ====
/-
  A plain matrix product on the extended reals as a sum over the shared axis.

  For the dimension numbers of an `A × K` by `K × B` product (`DotDims.plain A K B`: contract the left
  operand's axis 1 with the right operand's axis 0, no batch axes), a kernel's `tpu.matmul` into a zero
  accumulator and a host `dot_general` are, at entry `(a, b)`, the sum over `k : Fin K` of
  `lhs (a, k) * rhs (k, b)`. A printed record with these six lists is `DotDims.plain` by `rfl`.
-/
import Idealize.ShloMosaic.PureOps.Ideal.Laws
import Idealize.ShloMosaic.Lib.ValueIdx

noncomputable section

namespace Cert.LibMatProd

open Idealize.ShloMosaic Idealize.ShloMosaic.ValueIdx

variable (A K B : ℕ)

/-- The left operand's index at result index `i` and contraction index `q`: row `i 0` … -/
theorem lhs_axis0 (i : (⟨2, ![A, B]⟩ : Shape).Idx) (q : (DotDims.plain A K B).contr.Idx) :
    ((DotDims.plain A K B).lhsIdx i q 0).val = (i 0).val := by
  unfold DotDims.lhsIdx
  rw [dif_neg (show ¬(0 : Fin (⟨2, ![A, K]⟩ : Shape).rank) ∈ (DotDims.plain A K B).lhsBatch from List.not_mem_nil),
    dif_pos (show (0 : Fin (⟨2, ![A, K]⟩ : Shape).rank) ∈ (DotDims.plain A K B).lhsNonContracting from List.mem_singleton.2 rfl)]
  rfl
/-- … column `q`'s one coordinate. -/
theorem lhs_axis1 (i : (⟨2, ![A, B]⟩ : Shape).Idx) (q : (DotDims.plain A K B).contr.Idx) :
    ((DotDims.plain A K B).lhsIdx i q 1).val = (q ⟨0, Nat.one_pos⟩).val :=
  (DotDims.plain A K B).lhsIdx_val_of_single rfl i q
/-- The right operand's index: row `q`'s one coordinate … -/
theorem rhs_axis0 (i : (⟨2, ![A, B]⟩ : Shape).Idx) (q : (DotDims.plain A K B).contr.Idx) :
    ((DotDims.plain A K B).rhsIdx i q 0).val = (q ⟨0, Nat.one_pos⟩).val :=
  (DotDims.plain A K B).rhsIdx_val_of_single rfl i q
/-- … column `i 1`. -/
theorem rhs_axis1 (i : (⟨2, ![A, B]⟩ : Shape).Idx) (q : (DotDims.plain A K B).contr.Idx) :
    ((DotDims.plain A K B).rhsIdx i q 1).val = (i 1).val := by
  unfold DotDims.rhsIdx
  rw [dif_neg (show ¬(1 : Fin (⟨2, ![K, B]⟩ : Shape).rank) ∈ (DotDims.plain A K B).rhsBatch from List.not_mem_nil),
    dif_pos (show (1 : Fin (⟨2, ![K, B]⟩ : Shape).rank) ∈ (DotDims.plain A K B).rhsNonContracting from List.mem_singleton.2 rfl)]
  rfl

/-- The sum over the contraction index of a plain product is the sum over `k : Fin K`. -/
theorem plain_sum (l : (⟨2, ![A, K]⟩ : Shape).Idx → EReal) (r : (⟨2, ![K, B]⟩ : Shape).Idx → EReal) (a : Fin A) (b : Fin B) :
    (∑ q : (DotDims.plain A K B).contr.Idx,
        l ((DotDims.plain A K B).lhsIdx (ix2 a b) q) * r ((DotDims.plain A K B).rhsIdx (ix2 a b) q))
      = ∑ k : Fin K, l (ix2 a k) * r (ix2 k b) := by
  rw [← Equiv.sum_comp (contrEquiv1 (DotDims.plain A K B) K rfl rfl).symm]
  refine Finset.sum_congr rfl fun k _ => ?_
  have hk := contrEquiv1_symm_val (DotDims.plain A K B) K rfl rfl k
  have el : (DotDims.plain A K B).lhsIdx (ix2 a b) ((contrEquiv1 (DotDims.plain A K B) K rfl rfl).symm k) = ix2 a k :=
    funext fun ax => Fin.ext (by
      match ax with
      | ⟨0, _⟩ => exact lhs_axis0 A K B _ _
      | ⟨1, _⟩ => exact (lhs_axis1 A K B _ _).trans hk)
  have er : (DotDims.plain A K B).rhsIdx (ix2 a b) ((contrEquiv1 (DotDims.plain A K B) K rfl rfl).symm k) = ix2 k b :=
    funext fun ax => Fin.ext (by
      match ax with
      | ⟨0, _⟩ => exact (rhs_axis0 A K B _ _).trans hk
      | ⟨1, _⟩ => exact rhs_axis1 A K B _ _)
  rw [el, er]

variable {A K B}

/-- A kernel's matrix product into a zero accumulator, at entry `(a, b)`. -/
theorem matmul_zero_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    matmul d prec lhs rhs (constant ⟨2, ![A, B]⟩ .f32 0x00000000#32) (ix2 a b) = ∑ k : Fin K, lhs (ix2 a k) * rhs (ix2 k b) := by
  subst hd
  exact (Ideal.matmul_constant_zero_apply _ prec lhs rhs (ix2 a b)).trans (plain_sum A K B lhs rhs a b)

/-- A host `dot_general`, at entry `(a, b)`. -/
theorem dotGeneral_apply {φ₁ φ₂ : FTy} (d : DotDims ⟨2, ![A, K]⟩ ⟨2, ![K, B]⟩ ⟨2, ![A, B]⟩) (hd : d = DotDims.plain A K B)
    (prec : Option ContractPrecision) (lhs : FVec Ideal ⟨2, ![A, K]⟩ φ₁) (rhs : FVec Ideal ⟨2, ![K, B]⟩ φ₂) (a : Fin A) (b : Fin B) :
    Host.dotGeneral d prec lhs rhs (ix2 a b) = ∑ k : Fin K, lhs (ix2 a k) * rhs (ix2 k b) := by
  subst hd
  exact (Ideal.dotGeneral_apply _ prec .single lhs rhs (ix2 a b)).trans (plain_sum A K B lhs rhs a b)

end Cert.LibMatProd

end
-- ==== Proof.Block.lean ====
/-
  What one grid point computes. The body loads a block of 8192 gathered user rows and 8192 gathered book rows, the
  two transposed halves of W1, the bias b1, the second layer's weights as a vector, and its bias, and stores one value
  per row: for row p,
      sum_j max( sum_k x0[p,k] x2[k,j] + sum_k x1[p,k] x3[k,j] + x4[j], 0 ) * x5[j]  +  x6[0].
  Each of the body's operations that is not pointwise is read at an index by one lemma over variables: the lane sum
  along a row, a matrix product into a zero accumulator, a vector laid along every row, a one-entry vector laid along
  the whole block. The changes of float format in the body are the identity on the extended reals.
-/
import proofs.«419149_j14474039787539_1_alg».proof.Proof.Gen.KernelIdeal.Skeleton
import proofs.«419149_j14474039787539_1_alg».proof.Proof.LibMatProd
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.BlockValue

open Cert.KernelIdeal Cert.KernelIdeal.Gen Idealize.ShloMosaic Idealize.ShloMosaic.ValueIdx

/-- The source index of a row's lane sum: row p, lane k. -/
theorem lift_row (p : Fin 8192) (k : Fin 64) :
    (reduces_S8192x64_S8192 : S8192x64.Reduces [1] S8192).lift (ix1 p) k = ix2 p k :=
  funext fun a => Fin.ext (by match a with | ⟨0, _⟩ => rfl | ⟨1, _⟩ => rfl)

/-- The sum along axis 1 of an [8192, 64] block, from zero, at row p: the sum of the row's 64 entries. -/
theorem lane_sum (v : FVec Ideal S8192x64 .f32) (hφ : FKind.Formats .f32)
    (hacc : (0x00000000#32 : BitVec 32) = 0x00000000#32) (p : Fin 8192) :
    multiReduction .add [1] S8192 v 0x00000000#32 reduces_S8192x64_S8192 hφ hacc (ix1 p) = ∑ k : Fin 64, v (ix2 p k) :=
  (Ideal.multiReduction_add_single v 0x00000000#32 reduces_S8192x64_S8192 hφ hacc (ix1 p)).trans
    (Finset.sum_congr rfl fun k _ => congrArg v (lift_row p k))

/-- A block of rows (its format narrowed, which changes nothing here) times a 64 by 64 matrix, into a zero
    accumulator, at (p, j): the row against the matrix's column j. -/
theorem prod_apply (x : FVec Ideal S8192x64 .f32) (w : FVec Ideal S64x64 .bf16) (p : Fin 8192) (j : Fin 64) :
    matmul (F := Ideal) dot_S8192x64_S64x64_S8192x64_1_0_0_1_n_n none
        (truncf .bf16 (shapeCast S8192x64 x shapeCasts_S8192x64_S8192x64) bitsLt_bf16_f32)
        (shapeCast S64x64 w shapeCasts_S64x64_S64x64) (constant (F := Ideal) S8192x64 .f32 0x00000000#32) (ix2 p j)
      = ∑ k : Fin 64, x (ix2 p k) * w (ix2 k j) := by
  rw [shapeCast_self, shapeCast_self]
  exact LibMatProd.matmul_zero_apply _ rfl none _ _ p j

/-- A vector of 64 entries laid along every row of the block reads, at (p, j), its entry j. -/
theorem row_bcast (v : FVec Ideal S64 .f32) (p : Fin 8192) (j : Fin 64) :
    broadcastTo S8192x64 (shapeCast S1x64 v shapeCasts_S64_S1x64) broadcasts_S1x64_S8192x64 (ix2 p j) = v (ix1 j) :=
  (broadcastTo_1b_ab_apply _ broadcasts_S1x64_S8192x64 p j).trans
    (shapeCast_apply v shapeCasts_S64_S1x64 (ix2 (0 : Fin 1) j) (ix1 j) (by
      rw [Shape.rowMajor_val_one, Shape.rowMajor_val_two]; show j.val = 0 * 64 + j.val; omega))

/-- A one-entry vector laid along the 8192 rows reads its one entry everywhere. -/
theorem scalar_bcast (v : FVec Ideal S1 .f32) (p : Fin 8192) :
    broadcastTo S8192 v broadcasts_S1_S8192 (ix1 p) = v (ix1 0) :=
  broadcastTo_apply v broadcasts_S1_S8192 (ix1 p) (ix1 0) (fun a => by
    match a with
    | ⟨0, _⟩ => show (0 : Nat) = if (1 : Nat) = 1 then 0 else _; rw [if_pos rfl])

/-- The stored value at row p of the block, from the seven loaded blocks. -/
theorem pay_apply (x0 x1 : Vec Ideal S8192x64 .f32) (x2 x3 : Vec Ideal S64x64 .bf16) (x4 x5 : Vec Ideal S64 .f32)
    (x6 : Vec Ideal S1 .f32) (p : Fin 8192) :
    k0_pay1 (F := Ideal) x0 x1 x2 x3 x4 x5 x6 (ix1 p)
      = (∑ j : Fin 64, max ((∑ k : Fin 64, x0 (ix2 p k) * x2 (ix2 k j) + ∑ k : Fin 64, x1 (ix2 p k) * x3 (ix2 k j))
          + x4 (ix1 j)) 0 * x5 (ix1 j)) + x6 (ix1 0) := by
  unfold k0_pay1
  -- the last addition: the lane sum of the products, plus the second bias
  refine congrArg₂ (· + ·) ((lane_sum _ _ _ p).trans (Finset.sum_congr rfl fun j _ => ?_)) (scalar_bcast x6 p)
  -- lane j: the hidden unit (two products, the first bias, the cut at zero) times the weight's entry j
  refine congrArg₂ (· * ·) (congrArg₂ max (congrArg₂ (· + ·) (congrArg₂ (· + ·) (prod_apply x0 x2 p j) (prod_apply x1 x3 p j))
    (row_bcast x4 p j)) ?_) ?_
  · show Ideal.ofBits .f32 0x00000000#32 = 0
    exact Ideal.ofBits_zero_f32
  · rw [shapeCast_self]
    exact row_bcast x5 p j

end Cert.KernelIdeal.BlockValue

end
-- ==== Proof.Spec.lean ====
/-
  The edge decoder's score as one function of its seven arguments.

  An edge e names a user row and a book row by two index words (Python's wrap of a negative index, then the row).
  Its score is  sum_j relu( sum_k U[e,k] W1[j,k] + sum_k B[e,k] W1[j,64+k] + b1[j] ) * W2[0,j] + b2[0],
  where U[e,.] and B[e,.] are the two named rows. Both programs compute this function: the reference with the two
  rows laid side by side into one row of 128 entries and one sum over the 128 columns of W1, the kernel with the two
  halves summed apart; a sum over 128 columns is the sum over its two halves (only commutativity and associativity of
  addition, which the extended reals have without any finiteness).
-/
import Idealize.ShloMosaic.PureOps.Ideal.Laws
import Idealize.ShloMosaic.Lib.ValueIdx

noncomputable section

namespace Cert.EdgeScore

open Idealize.ShloMosaic Idealize.ShloMosaic.ValueIdx

abbrev STable : Shape := ⟨2, ![100000, 64]⟩
abbrev SEdges : Shape := ⟨2, ![2, 2000000]⟩
abbrev SW1 : Shape := ⟨2, ![64, 128]⟩
abbrev SB1 : Shape := ⟨1, ![64]⟩
abbrev SW2 : Shape := ⟨2, ![1, 64]⟩
abbrev SB2 : Shape := ⟨1, ![1]⟩
abbrev SOut : Shape := ⟨1, ![2000000]⟩
abbrev SPadRows : Shape := ⟨2, ![2007040, 64]⟩
abbrev SHalf : Shape := ⟨2, ![64, 64]⟩
abbrev SPadOut : Shape := ⟨1, ![2007040]⟩

/-! ## Index words -/

/-- An index word after Python's wrap of a negative index: v + 100000 when v < 0, else v. -/
def wrapWord (v : BitVec 32) : BitVec 32 :=
  Scalar.select (IntOp.cmpi .slt v 0#32) (IntOp.addi v 100000#32) v

/-- The table row an index word names: wrapped, read as a signed integer, kept inside the table. -/
def rowOf (v : BitVec 32) : Fin 100000 := ⟨min (wrapWord v).toInt.toNat (100000 - 1), by omega⟩

/-- A one-bit word made from a Boolean is 1 exactly when the Boolean is true. -/
theorem ofBool_eq_one (b : Bool) : BitVec.ofBool b = 1#1 ↔ b = true := by cases b <;> decide

/-- A word in [-100000, 100000) wraps to a word in [0, 99999]: the two comparisons a bounds test makes of the
    wrapped word both hold. -/
theorem wrap_in_table (v : BitVec 32) (hlo : IntOp.cmpi .sge v 4294867296#32 = 1#1)
    (hhi : IntOp.cmpi .slt v 100000#32 = 1#1) :
    IntOp.cmpi .sge (wrapWord v) 0#32 = 1#1 ∧ IntOp.cmpi .sle (wrapWord v) 99999#32 = 1#1 := by
  -- every comparison is one of signed integers; the four constants read -100000, 100000, 0, 99999
  unfold IntOp.cmpi at hlo hhi ⊢
  simp only [ofBool_eq_one, BitVec.slt, BitVec.sle, decide_eq_true_eq] at hlo hhi ⊢
  have c1 : (4294867296#32 : BitVec 32).toInt = -100000 := by decide
  have c2 : (100000#32 : BitVec 32).toInt = 100000 := by decide
  have c3 : (0#32 : BitVec 32).toInt = 0 := by decide
  have c4 : (99999#32 : BitVec 32).toInt = 99999 := by decide
  rw [c1] at hlo; rw [c2] at hhi; rw [c3, c4]
  unfold wrapWord Scalar.select IntOp.cmpi IntOp.addi
  by_cases hneg : v.toInt < 0
  · -- a negative word in range: v + 100000 does not wrap around, and lands in [0, 99999]
    have hs : BitVec.ofBool (v.slt 0#32) = 1 := by
      rw [show (1 : BitVec 1) = 1#1 from rfl, ofBool_eq_one]; simp only [BitVec.slt, decide_eq_true_eq, c3]; exact hneg
    rw [if_pos hs, BitVec.toInt_add, c2]
    have : (v.toInt + 100000).bmod (2 ^ 32) = v.toInt + 100000 := by
      apply Int.bmod_eq_of_le <;> omega
    rw [this]; omega
  · -- a non-negative word in range is kept
    have hs : ¬ BitVec.ofBool (v.slt 0#32) = 1 := by
      rw [show (1 : BitVec 1) = 1#1 from rfl, ofBool_eq_one]; simp only [BitVec.slt, decide_eq_true_eq, c3]; exact hneg
    rw [if_neg hs]; omega

/-! ## Columns of W1 -/

/-- Column k of the first half of W1's 128 columns. -/
def colU (k : Fin 64) : Fin 128 := ⟨k.val, by omega⟩
/-- Column 64 + k: the second half. -/
def colB (k : Fin 64) : Fin 128 := ⟨64 + k.val, by omega⟩

/-- A sum over the 128 columns is the sum over the first 64 plus the sum over the last 64. -/
theorem sum_halves (f : Fin 128 → EReal) : ∑ k : Fin 128, f k = ∑ k : Fin 64, f (colU k) + ∑ k : Fin 64, f (colB k) :=
  Fin.sum_univ_add (M := EReal) (a := 64) (b := 64) f

/-! ## The score -/

section
variable (zu zb : STable.Idx → EReal) (ei : SEdges.Idx → BitVec 32) (W1 : SW1.Idx → EReal) (b1 : SB1.Idx → EReal)
  (W2 : SW2.Idx → EReal) (b2 : SB2.Idx → EReal)

/-- Hidden unit j of edge e: the two named rows against the two halves of W1's row j, plus b1[j], cut at zero. -/
def hiddenUnit (e : Fin 2000000) (j : Fin 64) : EReal :=
  max ((∑ k : Fin 64, zu (ix2 (rowOf (ei (ix2 0 e))) k) * W1 (ix2 j (colU k))
        + ∑ k : Fin 64, zb (ix2 (rowOf (ei (ix2 1 e))) k) * W1 (ix2 j (colB k))) + b1 (ix1 j)) 0

/-- The score of edge i: the hidden units against W2's one row, plus b2. -/
def score (i : SOut.Idx) : EReal :=
  (∑ j : Fin 64, hiddenUnit zu zb ei W1 b1 (i 0) j * W2 (ix2 0 j)) + b2 (ix1 0)

end

/-! ## The same function over rows already gathered and weights already split -/

section
variable (u b : SPadRows.Idx → EReal) (wu wb : SHalf.Idx → EReal) (c1 w2 : SB1.Idx → EReal) (c2 : SB2.Idx → EReal)

/-- Row r's score from gathered (and padded) rows u, b, the two transposed halves wu, wb of W1, the bias c1, the
    second layer's weights w2 as a vector, and its bias c2. -/
def rowScore (r : Fin 2007040) : EReal :=
  (∑ j : Fin 64, max ((∑ k : Fin 64, u (ix2 r k) * wu (ix2 k j) + ∑ k : Fin 64, b (ix2 r k) * wb (ix2 k j))
      + c1 (ix1 j)) 0 * w2 (ix1 j)) + c2 (ix1 0)

end

/-- Over rows that are the named table rows (below row 2000000) and weights that are W1's halves transposed,
    the row score is the edge's score. -/
theorem rowScore_eq_score (zu zb : STable.Idx → EReal) (ei : SEdges.Idx → BitVec 32) (W1 : SW1.Idx → EReal)
    (b1 : SB1.Idx → EReal) (W2 : SW2.Idx → EReal) (b2 : SB2.Idx → EReal)
    (u b : SPadRows.Idx → EReal) (wu wb : SHalf.Idx → EReal) (c1 w2 : SB1.Idx → EReal) (c2 : SB2.Idx → EReal)
    (e : Fin 2000000)
    (hu : ∀ k : Fin 64, u (ix2 (⟨e.val, by omega⟩ : Fin 2007040) k) = zu (ix2 (rowOf (ei (ix2 0 e))) k))
    (hb : ∀ k : Fin 64, b (ix2 (⟨e.val, by omega⟩ : Fin 2007040) k) = zb (ix2 (rowOf (ei (ix2 1 e))) k))
    (hwu : ∀ k j : Fin 64, wu (ix2 k j) = W1 (ix2 j (colU k)))
    (hwb : ∀ k j : Fin 64, wb (ix2 k j) = W1 (ix2 j (colB k)))
    (hc1 : c1 = b1) (hw2 : ∀ j : Fin 64, w2 (ix1 j) = W2 (ix2 0 j)) (hc2 : c2 = b2) :
    rowScore u b wu wb c1 w2 c2 ⟨e.val, by omega⟩ = score zu zb ei W1 b1 W2 b2 (ix1 e) := by
  subst hc1 hc2
  unfold rowScore score hiddenUnit
  simp only [hu, hb, hwu, hwb, hw2]

end Cert.EdgeScore

end
-- ==== Proof.PaddedResult.lean ====
/-
  What the region leaves in its padded result array, and what the slice after it returns.

  The grid has 245 points; point t works on rows 8192 t .. 8192 t + 8191 of the two gathered (and padded) row arrays,
  on the whole of the five small arrays, and writes rows 8192 t .. 8192 t + 8191 of the result. So the value point t
  writes at row p of its block is the row score (Spec: rowScore) of padded row 8192 t + p: block t of the result is
  block t of ONE function of the staged arrays. The 245 blocks tile the 2007040 rows (row r lies in block r / 8192),
  so after the run the whole result array is that function, and the host slice after the region keeps its first
  2000000 rows.
-/
import proofs.«419149_j14474039787539_1_alg».proof.Proof.Gen.KernelIdeal.Frame
import proofs.«419149_j14474039787539_1_alg».proof.Proof.Block
import proofs.«419149_j14474039787539_1_alg».proof.Proof.Spec
import Idealize.ShloMosaic.Lib.Pipeline.Value

noncomputable section

open Idealize.ShloMosaic Idealize.ShloMosaic.TcCoe Idealize.SL.Sem Idealize.ShloMosaic.StableHlo
open Idealize.ShloMosaic.Pipeline (Dat)

namespace Cert.KernelIdeal.ArrValue

open Cert.KernelIdeal Cert.KernelIdeal.Gen Cert.EdgeScore Idealize.ShloMosaic.ValueIdx

variable (m : (ℓ : Loc nD τ sig) → Buf (Elt Ideal) ℓ) (ρ : Dev nD → PrngReg)

/-- The offsets of a whole-block access are all zero (rank 1, rank 2). -/
theorem hz1 : (![0] : Fin 1 → Nat) = fun _ => 0 := funext fun a => by fin_cases a; rfl
theorem hz2 : (![0, 0] : Fin 2 → Nat) = fun _ => 0 := funext fun a => by fin_cases a <;> rfl

/-! ## The seven staged arrays as the region finds them, at their literal types -/

/-- The gathered user rows, padded to 2007040 rows. -/
abbrev aU (c : Dev nD) : S2007040x64.Idx → EReal := V m c main_v6
/-- The gathered book rows, padded. -/
abbrev aB (c : Dev nD) : S2007040x64.Idx → EReal := V m c main_v7
/-- The first half of W1, transposed. -/
abbrev aWu (c : Dev nD) : S64x64.Idx → EReal := V m c main_v10
/-- The second half of W1, transposed. -/
abbrev aWb (c : Dev nD) : S64x64.Idx → EReal := V m c main_v13
/-- The first bias. -/
abbrev aC1 (c : Dev nD) : S64.Idx → EReal := V m c main_arg4
/-- The second layer's weights as a vector. -/
abbrev aW2 (c : Dev nD) : S64.Idx → EReal := V m c main_v14
/-- The second bias. -/
abbrev aC2 (c : Dev nD) : S1.Idx → EReal := V m c main_arg6

/-- The padded result as one function of the staged arrays: row r's score. -/
def padded (c : Dev nD) : S2007040.Idx → EReal := fun i =>
  rowScore (aU m c) (aB m c) (aWu m c) (aWb m c) (aC1 m c) (aW2 m c) (aC2 m c) (i 0)

/-- The index maps over the grid: the two row windows and the result window move with the point, along rows only; the
    five small windows stay at block 0. -/
theorem idx_facts : ∀ t : Fin cfg0.N, win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 1) = 0 ∧ win0_5.index t (0 : Fin 1) = 0 ∧ win0_6.index t (0 : Fin 1) = 0
    ∧ win0_7.index t (0 : Fin 1) = t.val :=
  (by decide +kernel : ∀ t : Fin grid0.N, _)

/-- A grid point's number is below 245. -/
theorem point_lt (t : Fin cfg0.N) : t.val < 245 := lt_of_lt_of_eq t.isLt N_0

/-- Row p of point t's block is row 8192 t + p of the padded arrays. -/
def rowAt (t : Fin cfg0.N) (p : Fin 8192) : Fin 2007040 := ⟨8192 * t.val + p.val, by have := point_lt t; omega⟩

/-! ## Each input block read at an index of its array -/

theorem blkU_apply (c : Dev nD) (t : Fin cfg0.N) (p : Fin 8192) (k : Fin 64) :
    (iblk m c 0 t : Vec Ideal S8192x64 .f32) (ix2 p k) = aU m c (ix2 (rowAt t p) k) := by
  obtain ⟨e0, e1, -⟩ := idx_facts t
  unfold iblk
  rw [View.read_apply]
  show V m c main_v6 _ = V m c main_v6 _
  congr 1
  funext a
  apply Fin.ext
  match a with
  | ⟨0, _⟩ => show win0_0.index t (0 : Fin 2) * 8192 + 1 * p.val = 8192 * t.val + p.val; rw [e0]; omega
  | ⟨1, _⟩ => show win0_0.index t (1 : Fin 2) * 64 + 1 * k.val = k.val; rw [e1]; omega

theorem blkB_apply (c : Dev nD) (t : Fin cfg0.N) (p : Fin 8192) (k : Fin 64) :
    (iblk m c 1 t : Vec Ideal S8192x64 .f32) (ix2 p k) = aB m c (ix2 (rowAt t p) k) := by
  obtain ⟨-, -, e0, e1, -⟩ := idx_facts t
  unfold iblk
  rw [View.read_apply]
  show V m c main_v7 _ = V m c main_v7 _
  congr 1
  funext a
  apply Fin.ext
  match a with
  | ⟨0, _⟩ => show win0_1.index t (0 : Fin 2) * 8192 + 1 * p.val = 8192 * t.val + p.val; rw [e0]; omega
  | ⟨1, _⟩ => show win0_1.index t (1 : Fin 2) * 64 + 1 * k.val = k.val; rw [e1]; omega

theorem blkWu_apply (c : Dev nD) (t : Fin cfg0.N) (k j : Fin 64) :
    (iblk m c 2 t : Vec Ideal S64x64 .bf16) (ix2 k j) = aWu m c (ix2 k j) := by
  obtain ⟨-, -, -, -, e0, e1, -⟩ := idx_facts t
  unfold iblk
  rw [View.read_apply]
  show V m c main_v10 _ = V m c main_v10 _
  congr 1
  funext a
  apply Fin.ext
  match a with
  | ⟨0, _⟩ => show win0_2.index t (0 : Fin 2) * 64 + 1 * k.val = k.val; rw [e0]; omega
  | ⟨1, _⟩ => show win0_2.index t (1 : Fin 2) * 64 + 1 * j.val = j.val; rw [e1]; omega

theorem blkWb_apply (c : Dev nD) (t : Fin cfg0.N) (k j : Fin 64) :
    (iblk m c 3 t : Vec Ideal S64x64 .bf16) (ix2 k j) = aWb m c (ix2 k j) := by
  obtain ⟨-, -, -, -, -, -, e0, e1, -⟩ := idx_facts t
  unfold iblk
  rw [View.read_apply]
  show V m c main_v13 _ = V m c main_v13 _
  congr 1
  funext a
  apply Fin.ext
  match a with
  | ⟨0, _⟩ => show win0_3.index t (0 : Fin 2) * 64 + 1 * k.val = k.val; rw [e0]; omega
  | ⟨1, _⟩ => show win0_3.index t (1 : Fin 2) * 64 + 1 * j.val = j.val; rw [e1]; omega

theorem blkC1_apply (c : Dev nD) (t : Fin cfg0.N) (j : Fin 64) :
    (iblk m c 4 t : Vec Ideal S64 .f32) (ix1 j) = aC1 m c (ix1 j) := by
  obtain ⟨-, -, -, -, -, -, -, -, e0, -⟩ := idx_facts t
  unfold iblk
  rw [View.read_apply]
  show V m c main_arg4 _ = V m c main_arg4 _
  congr 1
  funext a
  apply Fin.ext
  match a with
  | ⟨0, _⟩ => show win0_4.index t (0 : Fin 1) * 64 + 1 * j.val = j.val; rw [e0]; omega

theorem blkW2_apply (c : Dev nD) (t : Fin cfg0.N) (j : Fin 64) :
    (iblk m c 5 t : Vec Ideal S64 .f32) (ix1 j) = aW2 m c (ix1 j) := by
  obtain ⟨-, -, -, -, -, -, -, -, -, e0, -⟩ := idx_facts t
  unfold iblk
  rw [View.read_apply]
  show V m c main_v14 _ = V m c main_v14 _
  congr 1
  funext a
  apply Fin.ext
  match a with
  | ⟨0, _⟩ => show win0_5.index t (0 : Fin 1) * 64 + 1 * j.val = j.val; rw [e0]; omega

theorem blkC2_apply (c : Dev nD) (t : Fin cfg0.N) :
    (iblk m c 6 t : Vec Ideal S1 .f32) (ix1 0) = aC2 m c (ix1 0) := by
  obtain ⟨-, -, -, -, -, -, -, -, -, -, e0, -⟩ := idx_facts t
  unfold iblk
  rw [View.read_apply]
  show V m c main_arg6 _ = V m c main_arg6 _
  congr 1
  funext a
  apply Fin.ext
  match a with
  | ⟨0, _⟩ => show win0_6.index t (0 : Fin 1) * 1 + 1 * 0 = 0; rw [e0]

/-- The stored value at row p from blocks that are the arrays' rows and the whole small arrays. -/
theorem block_row (x0 x1 : Vec Ideal S8192x64 .f32) (x2 x3 : Vec Ideal S64x64 .bf16) (x4 x5 : Vec Ideal S64 .f32)
    (x6 : Vec Ideal S1 .f32) (u b : SPadRows.Idx → EReal) (wu wb : SHalf.Idx → EReal) (c1 w2 : SB1.Idx → EReal)
    (c2 : SB2.Idx → EReal) (p : Fin 8192) (r : Fin 2007040)
    (h0 : ∀ k : Fin 64, x0 (ix2 p k) = u (ix2 r k)) (h1 : ∀ k : Fin 64, x1 (ix2 p k) = b (ix2 r k))
    (h2 : ∀ k j : Fin 64, x2 (ix2 k j) = wu (ix2 k j)) (h3 : ∀ k j : Fin 64, x3 (ix2 k j) = wb (ix2 k j))
    (h4 : ∀ j : Fin 64, x4 (ix1 j) = c1 (ix1 j)) (h5 : ∀ j : Fin 64, x5 (ix1 j) = w2 (ix1 j))
    (h6 : x6 (ix1 0) = c2 (ix1 0)) :
    k0_pay1 (F := Ideal) x0 x1 x2 x3 x4 x5 x6 (ix1 p) = rowScore u b wu wb c1 w2 c2 r := by
  rw [BlockValue.pay_apply]
  unfold rowScore
  simp only [h0, h1, h2, h3, h4, h5, h6]

/-- WHAT POINT t WRITES BACK is block t of the padded result function. -/
theorem flushed_eq (c : Dev nD) (t : Fin cfg0.N) :
    (dats m 0 c).flushed 7 t = ((cfg0.win 7).blk t).view.read (Elt Ideal) (padded m c) := by
  show (cfg0.win 7).cut (grid0.coords t) ((dats m 0 c).after 7 t) = _
  rw [after0_7]
  unfold out0_7
  rw [View.canon_unit_zero hz1]
  simp only [View.ld_unit_zero (S := S8192x64) hz2, View.ld_unit_zero (S := S64x64) hz2, View.ld_unit_zero (S := S64) hz1,
    View.ld_unit_zero (S := S1) hz1]
  have key : ∀ y : S8192.Idx,
      k0_pay1 (F := Ideal) (iblk m c 0 t) (iblk m c 1 t) (iblk m c 2 t) (iblk m c 3 t) (iblk m c 4 t) (iblk m c 5 t) (iblk m c 6 t) y
        = padded m c (((cfg0.win 7).blk t).view.emb y) := by
    intro y
    obtain ⟨p, rfl⟩ : ∃ p : Fin 8192, y = ix1 p := ⟨y 0, eq_ix1 y⟩
    have hr : (((cfg0.win 7).blk t).view.emb (ix1 p) : S2007040.Idx) 0 = rowAt t p := by
      obtain ⟨-, -, -, -, -, -, -, -, -, -, -, e0⟩ := idx_facts t
      apply Fin.ext
      show win0_7.index t (0 : Fin 1) * 8192 + 1 * p.val = 8192 * t.val + p.val
      rw [e0]; omega
    unfold padded
    rw [hr]
    exact block_row (iblk m c 0 t) (iblk m c 1 t) (iblk m c 2 t) (iblk m c 3 t) (iblk m c 4 t) (iblk m c 5 t) (iblk m c 6 t)
      (aU m c) (aB m c) (aWu m c) (aWb m c) (aC1 m c) (aW2 m c) (aC2 m c) p (rowAt t p)
      (blkU_apply m c t p) (blkB_apply m c t p) (blkWu_apply m c t) (blkWb_apply m c t) (blkC1_apply m c t) (blkW2_apply m c t)
      (blkC2_apply m c t)
  funext y
  exact key y

/-- An index is in point t's block iff its row is in the block's range. -/
theorem mem_blk (t : Fin cfg0.N) (i : S2007040.Idx) :
    i ∈ ((cfg0.win 7).blk t).view.set ↔ ∀ a : Fin 1, win0_7.index t a * S8192.size a ≤ (i a).val
      ∧ (i a).val < win0_7.index t a * S8192.size a + S8192.size a := by
  show i ∈ ((View.whole main_v15).slice (win0_7.rect t)).set ↔ _
  rw [View.set_slice_whole, Rect.mem_set_unit]
  exact Iff.rfl

/-- Every row of the padded result is in some point's block: row r in point r / 8192's. -/
theorem cover (i : S2007040.Idx) :
    ∃ t : Fin cfg0.N, (cfg0.win 7).flush t = true ∧ i ∈ ((cfg0.win 7).blk t).view.set := by
  have hi : (i 0).val < 2007040 := (i 0).isLt
  have ht : (i 0).val / 8192 < cfg0.N := by rw [show cfg0.N = 245 from N_0]; omega
  refine ⟨⟨(i 0).val / 8192, ht⟩, flush0_7 _, ?_⟩
  rw [mem_blk]
  intro a
  obtain ⟨-, -, -, -, -, -, -, -, -, -, -, e0⟩ := idx_facts ⟨(i 0).val / 8192, ht⟩
  match a with
  | ⟨0, _⟩ =>
    show win0_7.index ⟨(i 0).val / 8192, ht⟩ (0 : Fin 1) * 8192 ≤ (i 0).val
      ∧ (i 0).val < win0_7.index ⟨(i 0).val / 8192, ht⟩ (0 : Fin 1) * 8192 + 8192
    rw [e0]
    show (i 0).val / 8192 * 8192 ≤ (i 0).val ∧ (i 0).val < (i 0).val / 8192 * 8192 + 8192
    omega

/-- After the run the result array holds the padded result function. -/
theorem final (c : Dev nD) : (dats m 0 c).arrAt 7 cfg0.N = padded m c :=
  (dats m 0 c).arrAt_eq_of_cover 7 (padded m c) (fun t _ => flushed_eq m c t) cover

/-- The host operation after the region: the returned array is the first 2000000 rows of the padded result. -/
theorem tail_eq (c : Dev nD) :
    Pipeline.afterTail₀ cfgs (dats m) 0 (V0 m) [hostOps1] c main_v16
      = (extractStridedSlice S2000000 ![0] (padded m c) slices_S2007040_S2000000_0 : S2000000.Idx → EReal) := by
  unfold Pipeline.afterTail₀
  show StableHlo.after hostOps1 _ (Proc.devRef .tc main_v16) = _
  after_results
  exact congrArg (extractStridedSlice S2000000 ![0] · slices_S2007040_S2000000_0)
    ((Pipeline.withArrays_arr spec0 launch0.win.arr_inj c (V0 m c) (fun w => (dats m 0 c).arrAt w (cfgs 0).N) 7).trans (final m c))

end Cert.KernelIdeal.ArrValue

end
-- ==== Proof.LibGather.lean ====
/-
  General lemma: the row gather (`table[idx]` over the rows of a rank-2 table, the row numbers an [M, 1] column), read
  at an index. Result row `e` is the table's row `min (max idx 0) (N - 1)`: the `e`-th start index read as a signed
  integer and clamped into the table.
-/
import Idealize.ShloMosaic.PureOps.Ideal
import Idealize.ShloMosaic.Lib.ValueIdx
import Idealize.ShloMosaic.Lib.StableHlo.Predicate

noncomputable section

namespace Cert.LibGather

open Idealize.ShloMosaic Idealize.ShloMosaic.ValueIdx Idealize.ShloMosaic.StableHlo.Predicate

/-- The dimension numbers of a row gather: table [N, C], row numbers as an [M, 1] column, result [M, C]. -/
def rowGatherDims (N M C : Nat)
    (wf : GatherDims.WF ⟨2, ![N, C]⟩ ⟨2, ![M, 1]⟩ ⟨2, ![M, C]⟩ [1] [0] [] [0] [] 1 ![1, C]) :
    GatherDims ⟨2, ![N, C]⟩ ⟨2, ![M, 1]⟩ ⟨2, ![M, C]⟩ where
  offsetDims := [1]
  collapsedSliceDims := [0]
  operandBatchingDims := []
  startIndicesBatchingDims := []
  startIndexMap := [0]
  indexVectorDim := 1
  sliceSizes := ![1, C]
  wf := wf

/-- A row gather at result row `e`, column `l`: the table's row at the `e`-th start index, read signed and clamped
    into `[0, N - 1]`, at column `l`. -/
theorem gather_rows_apply {α : Type} {N M C w : Nat} (hN : 0 < N)
    (wf : GatherDims.WF ⟨2, ![N, C]⟩ ⟨2, ![M, 1]⟩ ⟨2, ![M, C]⟩ [1] [0] [] [0] [] 1 ![1, C])
    (x : (⟨2, ![N, C]⟩ : Shape).Idx → α) (idx : IVec ⟨2, ![M, 1]⟩ w) (e : Fin M) (l : Fin C) :
    Host.gather (rowGatherDims N M C wf) x idx (ix2 e l)
      = x (ix2 ⟨min (idx (ixP e)).toInt.toNat (N - 1), by omega⟩ l) := by
  unfold Host.gather
  congr 1
  funext a
  refine Fin.ext ?_
  have h10 : ¬ ((1 : Fin 2) = 0) := by decide
  match a with
  | ⟨0, _⟩ =>
    -- axis 0 (the rows): collapsed and named by the start index map, so the coordinate is the clamped start alone
    show (rowGatherDims N M C wf).start (ix2 e l) idx 0 + (rowGatherDims N M C wf).batchCoord (ix2 e l) 0
        + (rowGatherDims N M C wf).offCoord (ix2 e l) 0 = min (idx (ixP e)).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N M C wf).startIndexMap from List.mem_singleton.mpr rfl)]
    -- the start index is read at row e of the column: the result's batch axis 0 feeds the column's axis 0
    have hsi : (rowGatherDims N M C wf).siIdx (ix2 e l) ⟨List.idxOf (0 : Fin 2) (rowGatherDims N M C wf).startIndexMap,
        List.idxOf_lt_length_iff.2 (List.mem_singleton.mpr rfl)⟩ = ixP e := by
      funext b; refine Fin.ext ?_
      match b with
      | ⟨0, _⟩ => rfl
      | ⟨1, _⟩ => rfl
    rw [hsi]
    rfl
  | ⟨1, _⟩ =>
    -- axis 1 (the columns): the one kept axis; not start-indexed, so start 0, and the offset coordinate is l
    show (rowGatherDims N M C wf).start (ix2 e l) idx 1 + (rowGatherDims N M C wf).batchCoord (ix2 e l) 1
        + (rowGatherDims N M C wf).offCoord (ix2 e l) 1 = l.val
    have h1s : (1 : Fin 2) ∉ (rowGatherDims N M C wf).startIndexMap := fun h => h10 (List.mem_singleton.mp h)
    have h1c : (1 : Fin 2) ∉ (rowGatherDims N M C wf).collapsedSliceDims := fun h => h10 (List.mem_singleton.mp h)
    have hs : (rowGatherDims N M C wf).start (ix2 e l) idx 1 = 0 := by
      unfold GatherDims.start
      rw [dif_neg h1s]
    rw [hs, GatherDims.batchCoord_eq_zero _ _ _ List.not_mem_nil]
    simp only [Nat.add_zero, Nat.zero_add]
    unfold GatherDims.offCoord
    rw [dif_pos ((GatherDims.mem_sKept _ _).mpr ⟨h1c, List.not_mem_nil⟩)]
    rfl

end Cert.LibGather

end
-- ==== Proof.HostPrefix.lean ====
/-
  What the region finds in its seven staged arrays: the host operations before the region, read at an index.

  @main first takes the two rows of the index array, then gathers the user rows and the book rows with jnp.take
  (wrap a negative index; test the wrapped index against [0, 99999]; gather the row; where the test fails, fill the row
  with a constant), pads both gathered arrays with 7040 rows, cuts W1 into its two halves and transposes them, and
  reshapes W2 into a vector. Under the precondition every index word is in [-100000, 100000), so every wrapped index
  passes the test (Spec: wrap_in_table) and the fill is never selected: row e of the padded user array, for
  e < 2000000, is the table row the word names. The operations are read one stretch at a time, each stretch as a
  function of an arbitrary valuation before it; of the reduction inside the bounds test only its value at one row is
  used.
-/
import proofs.«419149_j14474039787539_1_alg».proof.Proof.Gen.KernelIdeal.Frame
import proofs.«419149_j14474039787539_1_alg».proof.Proof.Spec
import proofs.«419149_j14474039787539_1_alg».proof.Proof.LibGather
import Idealize.ShloMosaic.Lib.Pipeline.Value
import Idealize.ShloMosaic.Lib.KernelVsHost
import Idealize.ShloMosaic.Lib.ReduceAll
import Idealize.ShloMosaic.Lib.StableHlo.Run
import Idealize.ShloMosaic.Lib.StableHlo.Predicate

noncomputable section

open Idealize.ShloMosaic Idealize.ShloMosaic.TcCoe Idealize.SL.Sem Idealize.ShloMosaic.StableHlo

namespace Cert.KernelIdeal.HostPrefix

open Cert.KernelIdeal Cert.KernelIdeal.Gen Cert.EdgeScore Idealize.ShloMosaic.ValueIdx Idealize.ShloMosaic.StableHlo.Predicate

/-! ## Small general facts -/

/-- A left fold by "and" from 1 over words that are all 1 is 1. -/
theorem foldl_andi_ones {ι : Type} (f : ι → BitVec 1) (l : List ι) (hf : ∀ n ∈ l, f n = 1#1) :
    l.foldl (fun r n => IntOp.andi r (f n)) 1#1 = 1#1 := by
  induction l with
  | nil => rfl
  | cons a l ih =>
    rw [List.foldl_cons, hf a (List.mem_cons_self ..), show IntOp.andi 1#1 1#1 = 1#1 from by decide]
    exact ih fun n hn => hf n (List.mem_cons_of_mem _ hn)

/-- A reduction by "and" from 1 is 1 at j when every operand entry that reduces into j is 1. -/
theorem reduce_andi_of_all {s t u : Shape} {axes : List (Fin s.rank)} (x : s.Idx → BitVec 1) (init : u.Idx → BitVec 1)
    (h : s.ReducesTo axes t) (hu : 0 < u.numel) (j : t.Idx) (hinit : ∀ i, init i = 1#1)
    (hx : ∀ i, h.drop i = j → x i = 1#1) : Host.reduce IntOp.andi x init h hu j = 1#1 := by
  rw [Host.reduce_eq_foldl, hinit]
  exact foldl_andi_ones x _ fun n hn => hx n (by simpa using (List.mem_filter.1 hn).2)

/-- The contents after two lists of operations in a row. -/
theorem after_append {Val : EltTy → Type} (l₁ l₂ : List (HloOp τ sig Val)) (X : Valuation τ sig Val) :
    after (l₁ ++ l₂) X = after l₂ (after l₁ X) := by
  induction l₁ generalizing X with
  | nil => rfl
  | cons op l ih => exact ih _

/-- Closes "these operations do not write that buffer": each operation's one result buffer is another. -/
macro "keeps" : tactic => `(tactic| (
  refine StableHlo.after_of_forall_not_mem _ _ (List.forall_iff_forall_mem.mp ?_)
  simp only [hostOps0, hostOps0_1, hostOps0_2, hostOps0_3, hostOps0_4, hostOps0_5, hostOps0_6, hostOps0_7, List.Forall,
    List.take_succ_cons, List.take_zero, List.drop_succ_cons, List.drop_zero,
    StableHlo.nullary_writes, StableHlo.unary_writes, StableHlo.binary_writes, StableHlo.ternary_writes,
    StableHlo.quaternary_writes, StableHlo.reshape_writes, StableHlo.binaryIndexed_writes, Finset.mem_singleton]
  repeat' apply And.intro
  all_goals exact StableHlo.devRef_ne_of_ne (by decide)))

/-! ## The index rows and the wrapped column -/

/-- Row 0 of the index array as a vector of 2000000 words. -/
def edgeRow0 (ei : IVec S2x2000000 32) : IVec S2000000 32 :=
  shapeCast S2000000 (extractStridedSlice S1x2000000 ![0, 0] ei slices_S2x2000000_S1x2000000_0_0) shapeCasts_S1x2000000_S2000000
/-- Row 1. -/
def edgeRow1 (ei : IVec S2x2000000 32) : IVec S2000000 32 :=
  shapeCast S2000000 (extractStridedSlice S1x2000000 ![1, 0] ei slices_S2x2000000_S1x2000000_1_0) shapeCasts_S1x2000000_S2000000

theorem edgeRow0_apply (ei : IVec S2x2000000 32) (e : Fin 2000000) : edgeRow0 ei (ix1 e) = ei (ix2 0 e) := by
  unfold edgeRow0
  rw [shapeCast_apply _ shapeCasts_S1x2000000_S2000000 (ix1 e) (ix2 (0 : Fin 1) e) (by
    rw [Shape.rowMajor_val_two, Shape.rowMajor_val_one]; show 0 * 2000000 + e.val = e.val; omega)]
  exact extractStridedSlice_apply ![0, 0] ei slices_S2x2000000_S1x2000000_0_0 (ix2 (0 : Fin 1) e) (ix2 0 e) (fun a => by
    match a with
    | ⟨0, _⟩ => rfl
    | ⟨1, _⟩ => show e.val = 0 + e.val; omega)

theorem edgeRow1_apply (ei : IVec S2x2000000 32) (e : Fin 2000000) : edgeRow1 ei (ix1 e) = ei (ix2 1 e) := by
  unfold edgeRow1
  rw [shapeCast_apply _ shapeCasts_S1x2000000_S2000000 (ix1 e) (ix2 (0 : Fin 1) e) (by
    rw [Shape.rowMajor_val_two, Shape.rowMajor_val_one]; show 0 * 2000000 + e.val = e.val; omega)]
  exact extractStridedSlice_apply ![1, 0] ei slices_S2x2000000_S1x2000000_1_0 (ix2 (0 : Fin 1) e) (ix2 1 e) (fun a => by
    match a with
    | ⟨0, _⟩ => rfl
    | ⟨1, _⟩ => show e.val = 0 + e.val; omega)

/-- The index vector after the wrap of negative indices, as a column of start indices. -/
def wrapCol (v : IVec S2000000 32) : IVec S2000000x1 32 :=
  broadcastInDim S2000000x1 ![0] bcast_S2000000_S2000000x1_0
    (select (cmpi .slt v (broadcastInDim S2000000 ![] bcast_S_S2000000 (constantI S_ 32 0#32)))
      (addi v (broadcastInDim S2000000 ![] bcast_S_S2000000 (constantI S_ 32 100000#32))) v)

theorem wrapCol_apply (v : IVec S2000000 32) (e : Fin 2000000) : wrapCol v (ixP e) = wrapWord (v (ix1 e)) := by
  unfold wrapCol
  rw [broadcastInDim_apply _ bcast_S2000000_S2000000x1_0 _ (ixP e) (ix1 e) (fun a => by
    match a with
    | ⟨0, _⟩ => show e.val = if (2000000 : Nat) = 1 then 0 else e.val; rw [if_neg (by decide)])]
  have b0 : broadcastInDim S2000000 ![] bcast_S_S2000000 (constantI S_ 32 0#32) (ix1 e) = 0#32 :=
    broadcastInDim_apply _ bcast_S_S2000000 _ (ix1 e) ix0 (fun a => a.elim0)
  have b1 : broadcastInDim S2000000 ![] bcast_S_S2000000 (constantI S_ 32 100000#32) (ix1 e) = 100000#32 :=
    broadcastInDim_apply _ bcast_S_S2000000 _ (ix1 e) ix0 (fun a => a.elim0)
  show Scalar.select (IntOp.cmpi .slt (v (ix1 e)) (broadcastInDim S2000000 ![] bcast_S_S2000000 (constantI S_ 32 0#32) (ix1 e)))
    (IntOp.addi (v (ix1 e)) (broadcastInDim S2000000 ![] bcast_S_S2000000 (constantI S_ 32 100000#32) (ix1 e))) (v (ix1 e)) = _
  rw [b0, b1]
  rfl

/-- The bounds test of the wrapped column, before its reduction: (word >= 0) and (word <= 99999). -/
def boundsTest (v : IVec S2000000 32) : IVec S2000000x1 1 :=
  andi (cmpi .sge (wrapCol v) (broadcastInDim S2000000x1 ![] bcast_S_S2000000x1 (constantI S_ 32 0#32)))
    (cmpi .sle (wrapCol v) (broadcastInDim S2000000x1 ![0, 1] bcast_S1x1_S2000000x1_0_1
      (broadcastInDim S1x1 ![1] bcast_S1_S1x1_1 (constantI S1 32 99999#32))))

/-- At row e the bounds test is 1 when the wrapped word passes both comparisons. -/
theorem boundsTest_apply (v : IVec S2000000 32) (e : Fin 2000000)
    (h1 : IntOp.cmpi .sge (wrapWord (v (ix1 e))) 0#32 = 1#1) (h2 : IntOp.cmpi .sle (wrapWord (v (ix1 e))) 99999#32 = 1#1) :
    boundsTest v (ixP e) = 1#1 := by
  have c0 : broadcastInDim S2000000x1 ![] bcast_S_S2000000x1 (constantI S_ 32 0#32) (ixP e) = 0#32 :=
    broadcastInDim_apply _ bcast_S_S2000000x1 _ (ixP e) ix0 (fun a => a.elim0)
  have c1 : broadcastInDim S2000000x1 ![0, 1] bcast_S1x1_S2000000x1_0_1
      (broadcastInDim S1x1 ![1] bcast_S1_S1x1_1 (constantI S1 32 99999#32)) (ixP e) = 99999#32 :=
    (broadcastInDim_apply _ bcast_S1x1_S2000000x1_0_1 _ (ixP e) (ix2 (0 : Fin 1) (0 : Fin 1)) (fun a => by
      match a with
      | ⟨0, _⟩ => show 0 = if (1 : Nat) = 1 then 0 else _; rw [if_pos rfl]
      | ⟨1, _⟩ => show 0 = if (1 : Nat) = 1 then 0 else _; rw [if_pos rfl])).trans
    (broadcastInDim_apply _ bcast_S1_S1x1_1 _ (ix2 (0 : Fin 1) (0 : Fin 1)) (ix1 (0 : Fin 1)) (fun a => by
      match a with
      | ⟨0, _⟩ => show 0 = if (1 : Nat) = 1 then 0 else _; rw [if_pos rfl]))
  unfold boundsTest
  show IntOp.andi (IntOp.cmpi .sge (wrapCol v (ixP e)) (broadcastInDim S2000000x1 ![] bcast_S_S2000000x1 (constantI S_ 32 0#32) (ixP e)))
    (IntOp.cmpi .sle (wrapCol v (ixP e)) (broadcastInDim S2000000x1 ![0, 1] bcast_S1x1_S2000000x1_0_1
      (broadcastInDim S1x1 ![1] bcast_S1_S1x1_1 (constantI S1 32 99999#32)) (ixP e))) = 1#1
  rw [wrapCol_apply, c0, c1]
  exact IntOp.andi_eq_one.2 ⟨h1, h2⟩

/-- An index of an [n, 1] column is (its row, 0). -/
theorem eq_ixP (i : S2000000x1.Idx) : i = ixP (i 0) := funext fun a => by
  match a with
  | ⟨0, _⟩ => rfl
  | ⟨1, _⟩ => exact Subsingleton.elim (α := Fin 1) _ _

variable {F : FTy → Type} [FloatOps F]

/-- The select of jnp.take at (e, k): where the row's test is 1, the gathered row, which is the table row the column's
    word names, read signed and kept inside the table. -/
theorem takeSel_apply (mask : IVec S2000000 1) (x : FVec F S100000x64 .f32) (col : IVec S2000000x1 32) (e : Fin 2000000)
    (k : Fin 64) (hm : mask (ix1 e) = 1#1) :
    select (broadcastInDim S2000000x64 ![0] bcast_S2000000_S2000000x64_0 mask)
        (Host.gather gather_S100000x64_S2000000x1_S2000000x64_1_0_n_n_0_1_164 x col)
        (broadcastInDim S2000000x64 ![] bcast_S_S2000000x64 (constant (F := F) S_ .f32 0x7FC00000#32)) (ix2 e k)
      = x (ix2 (⟨min (col (ixP e)).toInt.toNat (100000 - 1), by omega⟩ : Fin 100000) k) := by
  have hb : broadcastInDim S2000000x64 ![0] bcast_S2000000_S2000000x64_0 mask (ix2 e k) = 1#1 := by
    rw [broadcastInDim_apply _ bcast_S2000000_S2000000x64_0 _ (ix2 e k) (ix1 e) (fun a => by
      match a with
      | ⟨0, _⟩ => show e.val = if (2000000 : Nat) = 1 then 0 else e.val; rw [if_neg (by decide)])]
    exact hm
  rw [select_apply, hb]
  unfold Scalar.select
  rw [if_pos (show (1#1 : BitVec 1) = 1 from rfl)]
  exact LibGather.gather_rows_apply (N := 100000) (M := 2000000) (C := 64) (by decide)
    gather_S100000x64_S2000000x1_S2000000x64_1_0_n_n_0_1_164_wf x col e k

variable (X : Valuation τ sig (Elt F))

/-! ## The take of the user rows, cut around the reduction of its bounds test -/

/-- The stretch is its first 17 operations, the reduction, and the 5 after it. -/
theorem t0_split : (hostOps0_1 : List (HloOp τ sig (Elt F)))
    = hostOps0_1.take 17 ++ (hostOps0_1.drop 17).take 1 ++ hostOps0_1.drop 18 := rfl

theorem t0a_col : after ((hostOps0_1 : List (HloOp τ sig (Elt F))).take 17) X (Proc.devRef .tc main_call0_v5)
    = wrapCol (X (Proc.devRef .tc main_v1)) := by
  simp only [hostOps0_1, List.take_succ_cons, List.take_zero]
  after_results_simp
  rfl

theorem t0a_test : after ((hostOps0_1 : List (HloOp τ sig (Elt F))).take 17) X (Proc.devRef .tc main_call0_v11)
    = boundsTest (X (Proc.devRef .tc main_v1)) := by
  simp only [hostOps0_1, List.take_succ_cons, List.take_zero]
  after_results_simp
  rfl

theorem t0a_one : after ((hostOps0_1 : List (HloOp τ sig (Elt F))).take 17) X (Proc.devRef .tc main_call0_c_3)
    = constantI S_ 1 1#1 := by
  simp only [hostOps0_1, List.take_succ_cons, List.take_zero]
  after_results_simp
  rfl

theorem t0a_tab : after ((hostOps0_1 : List (HloOp τ sig (Elt F))).take 17) X (Proc.devRef .tc main_arg0)
    = X (Proc.devRef .tc main_arg0) := by keeps

/-- The reduction's result is its own buffer's contents: no change of type. -/
theorem t0_toBuf (h1 : main_call0_v12.ty = ⟨S2000000, .i1⟩) (h2 : main_call0_v12.space ≠ .host)
    (h3 : main_call0_v12.isScoped = false) (v : (⟨S2000000, .i1⟩ : BufTy).Contents (Elt F)) :
    (TRef.of main_call0_v12 h1 h2 h3).toBuf v = v := rfl

/-- The reduced test at row e is 1 when the test's initial value is 1 and the test is 1 on row e. -/
theorem t0b_mask (Z : Valuation τ sig (Elt F)) (e : Fin 2000000)
    (hc : ∀ i, (Z (Proc.devRef .tc main_call0_c_3) : S_.Idx → BitVec 1) i = 1#1)
    (hv : ∀ i : S2000000x1.Idx, i 0 = e → (Z (Proc.devRef .tc main_call0_v11) : S2000000x1.Idx → BitVec 1) i = 1#1) :
    (after (((hostOps0_1 : List (HloOp τ sig (Elt F))).drop 17).take 1) Z (Proc.devRef .tc main_call0_v12) : S2000000.Idx → BitVec 1) (ix1 e) = 1#1 := by
  simp only [hostOps0_1, List.drop_succ_cons, List.drop_zero, List.take_succ_cons, List.take_zero]
  after_results
  rw [t0_toBuf]
  exact reduce_andi_of_all _ _ _ _ _ hc fun i hi => hv i (congrFun hi 0)

theorem t0b_col (Z : Valuation τ sig (Elt F)) :
    after (((hostOps0_1 : List (HloOp τ sig (Elt F))).drop 17).take 1) Z (Proc.devRef .tc main_call0_v5) = Z (Proc.devRef .tc main_call0_v5) := by keeps
theorem t0b_tab (Z : Valuation τ sig (Elt F)) :
    after (((hostOps0_1 : List (HloOp τ sig (Elt F))).drop 17).take 1) Z (Proc.devRef .tc main_arg0) = Z (Proc.devRef .tc main_arg0) := by keeps

theorem t0c_out (Y : Valuation τ sig (Elt F)) : after ((hostOps0_1 : List (HloOp τ sig (Elt F))).drop 18) Y (Proc.devRef .tc main_v4)
    = select (broadcastInDim S2000000x64 ![0] bcast_S2000000_S2000000x64_0 (Y (Proc.devRef .tc main_call0_v12)))
        (Host.gather gather_S100000x64_S2000000x1_S2000000x64_1_0_n_n_0_1_164 (Y (Proc.devRef .tc main_arg0)) (Y (Proc.devRef .tc main_call0_v5)))
        (broadcastInDim S2000000x64 ![] bcast_S_S2000000x64 (constant (F := F) S_ .f32 0x7FC00000#32)) := by
  simp only [hostOps0_1, List.drop_succ_cons, List.drop_zero]
  after_results_simp
  rfl

/-- The gathered user row of edge e at column k, when the edge's wrapped index is inside the table. -/
theorem t0_apply (e : Fin 2000000) (k : Fin 64)
    (h1 : IntOp.cmpi .sge (wrapWord ((X (Proc.devRef .tc main_v1) : S2000000.Idx → BitVec 32) (ix1 e))) 0#32 = 1#1)
    (h2 : IntOp.cmpi .sle (wrapWord ((X (Proc.devRef .tc main_v1) : S2000000.Idx → BitVec 32) (ix1 e))) 99999#32 = 1#1) :
    (after hostOps0_1 X (Proc.devRef .tc main_v4) : S2000000x64.Idx → F .f32) (ix2 e k)
      = (X (Proc.devRef .tc main_arg0) : S100000x64.Idx → F .f32)
          (ix2 (rowOf ((X (Proc.devRef .tc main_v1) : S2000000.Idx → BitVec 32) (ix1 e))) k) := by
  rw [t0_split, after_append, after_append, t0c_out]
  have hm : (after (((hostOps0_1 : List (HloOp τ sig (Elt F))).drop 17).take 1) (after (hostOps0_1.take 17) X)
      (Proc.devRef .tc main_call0_v12) : S2000000.Idx → BitVec 1) (ix1 e) = 1#1 := by
    refine t0b_mask (after (hostOps0_1.take 17) X) e (fun i => ?_) (fun i hi => ?_)
    · rw [t0a_one]; rfl
    · rw [t0a_test, eq_ixP i, hi]
      exact boundsTest_apply _ e h1 h2
  rw [takeSel_apply _ _ _ e k hm, t0b_tab, t0a_tab, t0b_col, t0a_col]
  refine congrArg (fun r : Fin 100000 => (X (Proc.devRef .tc main_arg0) : S100000x64.Idx → F .f32) (ix2 r k)) (Fin.ext ?_)
  show min (wrapCol _ (ixP e)).toInt.toNat (100000 - 1) = min (wrapWord _).toInt.toNat (100000 - 1)
  rw [wrapCol_apply]

/-! ## The take of the book rows, cut around the reduction of its bounds test -/

/-- The stretch is its first 17 operations, the reduction, and the 5 after it. -/
theorem t1_split : (hostOps0_2 : List (HloOp τ sig (Elt F)))
    = hostOps0_2.take 17 ++ (hostOps0_2.drop 17).take 1 ++ hostOps0_2.drop 18 := rfl

theorem t1a_col : after ((hostOps0_2 : List (HloOp τ sig (Elt F))).take 17) X (Proc.devRef .tc main_call1_v5)
    = wrapCol (X (Proc.devRef .tc main_v3)) := by
  simp only [hostOps0_2, List.take_succ_cons, List.take_zero]
  after_results_simp
  rfl

theorem t1a_test : after ((hostOps0_2 : List (HloOp τ sig (Elt F))).take 17) X (Proc.devRef .tc main_call1_v11)
    = boundsTest (X (Proc.devRef .tc main_v3)) := by
  simp only [hostOps0_2, List.take_succ_cons, List.take_zero]
  after_results_simp
  rfl

theorem t1a_one : after ((hostOps0_2 : List (HloOp τ sig (Elt F))).take 17) X (Proc.devRef .tc main_call1_c_3)
    = constantI S_ 1 1#1 := by
  simp only [hostOps0_2, List.take_succ_cons, List.take_zero]
  after_results_simp
  rfl

theorem t1a_tab : after ((hostOps0_2 : List (HloOp τ sig (Elt F))).take 17) X (Proc.devRef .tc main_arg1)
    = X (Proc.devRef .tc main_arg1) := by keeps

/-- The reduction's result is its own buffer's contents: no change of type. -/
theorem t1_toBuf (h1 : main_call1_v12.ty = ⟨S2000000, .i1⟩) (h2 : main_call1_v12.space ≠ .host)
    (h3 : main_call1_v12.isScoped = false) (v : (⟨S2000000, .i1⟩ : BufTy).Contents (Elt F)) :
    (TRef.of main_call1_v12 h1 h2 h3).toBuf v = v := rfl

/-- The reduced test at row e is 1 when the test's initial value is 1 and the test is 1 on row e. -/
theorem t1b_mask (Z : Valuation τ sig (Elt F)) (e : Fin 2000000)
    (hc : ∀ i, (Z (Proc.devRef .tc main_call1_c_3) : S_.Idx → BitVec 1) i = 1#1)
    (hv : ∀ i : S2000000x1.Idx, i 0 = e → (Z (Proc.devRef .tc main_call1_v11) : S2000000x1.Idx → BitVec 1) i = 1#1) :
    (after (((hostOps0_2 : List (HloOp τ sig (Elt F))).drop 17).take 1) Z (Proc.devRef .tc main_call1_v12) : S2000000.Idx → BitVec 1) (ix1 e) = 1#1 := by
  simp only [hostOps0_2, List.drop_succ_cons, List.drop_zero, List.take_succ_cons, List.take_zero]
  after_results
  rw [t1_toBuf]
  exact reduce_andi_of_all _ _ _ _ _ hc fun i hi => hv i (congrFun hi 0)

theorem t1b_col (Z : Valuation τ sig (Elt F)) :
    after (((hostOps0_2 : List (HloOp τ sig (Elt F))).drop 17).take 1) Z (Proc.devRef .tc main_call1_v5) = Z (Proc.devRef .tc main_call1_v5) := by keeps
theorem t1b_tab (Z : Valuation τ sig (Elt F)) :
    after (((hostOps0_2 : List (HloOp τ sig (Elt F))).drop 17).take 1) Z (Proc.devRef .tc main_arg1) = Z (Proc.devRef .tc main_arg1) := by keeps

theorem t1c_out (Y : Valuation τ sig (Elt F)) : after ((hostOps0_2 : List (HloOp τ sig (Elt F))).drop 18) Y (Proc.devRef .tc main_v5)
    = select (broadcastInDim S2000000x64 ![0] bcast_S2000000_S2000000x64_0 (Y (Proc.devRef .tc main_call1_v12)))
        (Host.gather gather_S100000x64_S2000000x1_S2000000x64_1_0_n_n_0_1_164 (Y (Proc.devRef .tc main_arg1)) (Y (Proc.devRef .tc main_call1_v5)))
        (broadcastInDim S2000000x64 ![] bcast_S_S2000000x64 (constant (F := F) S_ .f32 0x7FC00000#32)) := by
  simp only [hostOps0_2, List.drop_succ_cons, List.drop_zero]
  after_results_simp
  rfl

/-- The gathered book row of edge e at column k, when the edge's wrapped index is inside the table. -/
theorem t1_apply (e : Fin 2000000) (k : Fin 64)
    (h1 : IntOp.cmpi .sge (wrapWord ((X (Proc.devRef .tc main_v3) : S2000000.Idx → BitVec 32) (ix1 e))) 0#32 = 1#1)
    (h2 : IntOp.cmpi .sle (wrapWord ((X (Proc.devRef .tc main_v3) : S2000000.Idx → BitVec 32) (ix1 e))) 99999#32 = 1#1) :
    (after hostOps0_2 X (Proc.devRef .tc main_v5) : S2000000x64.Idx → F .f32) (ix2 e k)
      = (X (Proc.devRef .tc main_arg1) : S100000x64.Idx → F .f32)
          (ix2 (rowOf ((X (Proc.devRef .tc main_v3) : S2000000.Idx → BitVec 32) (ix1 e))) k) := by
  rw [t1_split, after_append, after_append, t1c_out]
  have hm : (after (((hostOps0_2 : List (HloOp τ sig (Elt F))).drop 17).take 1) (after (hostOps0_2.take 17) X)
      (Proc.devRef .tc main_call1_v12) : S2000000.Idx → BitVec 1) (ix1 e) = 1#1 := by
    refine t1b_mask (after (hostOps0_2.take 17) X) e (fun i => ?_) (fun i hi => ?_)
    · rw [t1a_one]; rfl
    · rw [t1a_test, eq_ixP i, hi]
      exact boundsTest_apply _ e h1 h2
  rw [takeSel_apply _ _ _ e k hm, t1b_tab, t1a_tab, t1b_col, t1a_col]
  refine congrArg (fun r : Fin 100000 => (X (Proc.devRef .tc main_arg1) : S100000x64.Idx → F .f32) (ix2 r k)) (Fin.ext ?_)
  show min (wrapCol _ (ixP e)).toInt.toNat (100000 - 1) = min (wrapWord _).toInt.toNat (100000 - 1)
  rw [wrapCol_apply]

/-! ## The other stretches -/

theorem s0_row0 : after hostOps0 X (Proc.devRef .tc main_v1) = edgeRow0 (X (Proc.devRef .tc main_arg2)) := by
  simp only [hostOps0]
  after_results
  rfl

theorem s0_row1 : after hostOps0 X (Proc.devRef .tc main_v3) = edgeRow1 (X (Proc.devRef .tc main_arg2)) := by
  simp only [hostOps0]
  after_results
  rfl

theorem s4_pad : after hostOps0_4 X (Proc.devRef .tc main_v6)
    = pad S2007040x64 ![0, 0] ![7040, 0] ![0, 0] (X (Proc.devRef .tc main_v4))
        (sitofp (F := F) .f32 (X (Proc.devRef .tc main_c))) pads_S2000000x64_S2007040x64_070400_000 h_S_ := by
  simp only [hostOps0_4]
  after_results
  rfl

theorem s6_pad : after hostOps0_6 X (Proc.devRef .tc main_v7)
    = pad S2007040x64 ![0, 0] ![7040, 0] ![0, 0] (X (Proc.devRef .tc main_v5))
        (sitofp (F := F) .f32 (X (Proc.devRef .tc main_c_0))) pads_S2000000x64_S2007040x64_070400_000 h_S_ := by
  simp only [hostOps0_6]
  after_results
  rfl

theorem s7_wu : after hostOps0_7 X (Proc.devRef .tc main_v10)
    = truncf .bf16 (transpose S64x64 [1, 0] (extractStridedSlice S64x64 ![0, 0] (X (Proc.devRef .tc main_arg3))
        slices_S64x128_S64x64_0_0) transposes_S64x64_S64x64_1_0) bitsLt_bf16_f32 := by
  simp only [hostOps0_7]
  after_results

theorem s7_wb : after hostOps0_7 X (Proc.devRef .tc main_v13)
    = truncf .bf16 (transpose S64x64 [1, 0] (extractStridedSlice S64x64 ![0, 64] (X (Proc.devRef .tc main_arg3))
        slices_S64x128_S64x64_0_64) transposes_S64x64_S64x64_1_0) bitsLt_bf16_f32 := by
  simp only [hostOps0_7]
  after_results

theorem s7_w2 : after hostOps0_7 X (Proc.devRef .tc main_v14)
    = shapeCast S64 (X (Proc.devRef .tc main_arg5)) shapeCasts_S1x64_S64 := by
  simp only [hostOps0_7]
  after_results
  rfl

/-! ## Buffers a stretch does not write -/

theorem k5_v6 : after hostOps0_5 X (Proc.devRef .tc main_v6) = X (Proc.devRef .tc main_v6) := by keeps
theorem k6_v6 : after hostOps0_6 X (Proc.devRef .tc main_v6) = X (Proc.devRef .tc main_v6) := by keeps
theorem k7_v6 : after hostOps0_7 X (Proc.devRef .tc main_v6) = X (Proc.devRef .tc main_v6) := by keeps
theorem k2_v4 : after hostOps0_2 X (Proc.devRef .tc main_v4) = X (Proc.devRef .tc main_v4) := by keeps
theorem k3_v4 : after hostOps0_3 X (Proc.devRef .tc main_v4) = X (Proc.devRef .tc main_v4) := by keeps
theorem k0_arg0 : after hostOps0 X (Proc.devRef .tc main_arg0) = X (Proc.devRef .tc main_arg0) := by keeps
theorem k7_v7 : after hostOps0_7 X (Proc.devRef .tc main_v7) = X (Proc.devRef .tc main_v7) := by keeps
theorem k3_v5 : after hostOps0_3 X (Proc.devRef .tc main_v5) = X (Proc.devRef .tc main_v5) := by keeps
theorem k4_v5 : after hostOps0_4 X (Proc.devRef .tc main_v5) = X (Proc.devRef .tc main_v5) := by keeps
theorem k5_v5 : after hostOps0_5 X (Proc.devRef .tc main_v5) = X (Proc.devRef .tc main_v5) := by keeps
theorem k0_arg1 : after hostOps0 X (Proc.devRef .tc main_arg1) = X (Proc.devRef .tc main_arg1) := by keeps
theorem k1_arg1 : after hostOps0_1 X (Proc.devRef .tc main_arg1) = X (Proc.devRef .tc main_arg1) := by keeps
theorem k1_v3 : after hostOps0_1 X (Proc.devRef .tc main_v3) = X (Proc.devRef .tc main_v3) := by keeps
theorem k0_arg3 : after hostOps0 X (Proc.devRef .tc main_arg3) = X (Proc.devRef .tc main_arg3) := by keeps
theorem k1_arg3 : after hostOps0_1 X (Proc.devRef .tc main_arg3) = X (Proc.devRef .tc main_arg3) := by keeps
theorem k2_arg3 : after hostOps0_2 X (Proc.devRef .tc main_arg3) = X (Proc.devRef .tc main_arg3) := by keeps
theorem k3_arg3 : after hostOps0_3 X (Proc.devRef .tc main_arg3) = X (Proc.devRef .tc main_arg3) := by keeps
theorem k4_arg3 : after hostOps0_4 X (Proc.devRef .tc main_arg3) = X (Proc.devRef .tc main_arg3) := by keeps
theorem k5_arg3 : after hostOps0_5 X (Proc.devRef .tc main_arg3) = X (Proc.devRef .tc main_arg3) := by keeps
theorem k6_arg3 : after hostOps0_6 X (Proc.devRef .tc main_arg3) = X (Proc.devRef .tc main_arg3) := by keeps
theorem k0_arg5 : after hostOps0 X (Proc.devRef .tc main_arg5) = X (Proc.devRef .tc main_arg5) := by keeps
theorem k1_arg5 : after hostOps0_1 X (Proc.devRef .tc main_arg5) = X (Proc.devRef .tc main_arg5) := by keeps
theorem k2_arg5 : after hostOps0_2 X (Proc.devRef .tc main_arg5) = X (Proc.devRef .tc main_arg5) := by keeps
theorem k3_arg5 : after hostOps0_3 X (Proc.devRef .tc main_arg5) = X (Proc.devRef .tc main_arg5) := by keeps
theorem k4_arg5 : after hostOps0_4 X (Proc.devRef .tc main_arg5) = X (Proc.devRef .tc main_arg5) := by keeps
theorem k5_arg5 : after hostOps0_5 X (Proc.devRef .tc main_arg5) = X (Proc.devRef .tc main_arg5) := by keeps
theorem k6_arg5 : after hostOps0_6 X (Proc.devRef .tc main_arg5) = X (Proc.devRef .tc main_arg5) := by keeps

/-! ## The staged arrays at the ideal instance -/

section AtIdeal

variable (m : (ℓ : Loc nD τ sig) → Buf (Elt Ideal) ℓ)

/-- The contents @main starts from, as a valuation. -/
abbrev M (c : Dev nD) : Valuation τ sig (Elt Ideal) := fun b => m (c, b)

/-- The region-entry contents, stretch after stretch. -/
theorem V0_eq (c : Dev nD) : V0 m c = after hostOps0_7 (after hostOps0_6 (after hostOps0_5 (after hostOps0_4
    (after hostOps0_3 (after hostOps0_2 (after hostOps0_1 (after hostOps0 (M m c)))))))) := by
  show after (List.flatten [hostOps0, hostOps0_1, hostOps0_2, hostOps0_3, hostOps0_4, hostOps0_5, hostOps0_6, hostOps0_7]) (M m c) = _
  simp only [List.flatten_cons, List.flatten_nil, List.append_nil, after_append]

/-- Every index word of device c passes the two range comparisons. -/
def InRange (c : Dev nD) : Prop := ∀ i : S2x2000000.Idx,
  IntOp.cmpi .sge ((m ((c : Thread nD τ).loc main_arg2) : S2x2000000.Idx → BitVec 32) i) 4294867296#32 = 1#1
    ∧ IntOp.cmpi .slt ((m ((c : Thread nD τ).loc main_arg2) : S2x2000000.Idx → BitVec 32) i) 100000#32 = 1#1

/-- Row e (below 2000000) of the padded user rows is the table row the edge's user index names. -/
theorem U_apply (c : Dev nD) (hr : InRange m c) (e : Fin 2000000) (k : Fin 64) :
    (V m c main_v6 : S2007040x64.Idx → EReal) (ix2 (⟨e.val, by omega⟩ : Fin 2007040) k)
      = (m ((c : Thread nD τ).loc main_arg0) : S100000x64.Idx → EReal)
          (ix2 (rowOf ((m ((c : Thread nD τ).loc main_arg2) : S2x2000000.Idx → BitVec 32) (ix2 0 e))) k) := by
  show V0 m c (Proc.devRef .tc main_v6) _ = _
  rw [V0_eq, k7_v6, k6_v6, k5_v6, s4_pad]
  rw [pad_apply_of_inside ![0, 0] ![7040, 0] ![0, 0] _ _ pads_S2000000x64_S2007040x64_070400_000 h_S_
    (ix2 (⟨e.val, by omega⟩ : Fin 2007040) k) (ix2 e k) (fun a => by
      match a with
      | ⟨0, _⟩ => show e.val = 0 + e.val * (0 + 1); omega
      | ⟨1, _⟩ => show k.val = 0 + k.val * (0 + 1); omega)]
  rw [k3_v4, k2_v4]
  have hrow : (after hostOps0 (M m c) (Proc.devRef .tc main_v1) : S2000000.Idx → BitVec 32) (ix1 e)
      = (m ((c : Thread nD τ).loc main_arg2) : S2x2000000.Idx → BitVec 32) (ix2 0 e) := by
    rw [s0_row0, edgeRow0_apply]
  have hw := wrap_in_table _ (hr (ix2 0 e)).1 (hr (ix2 0 e)).2
  rw [t0_apply (after hostOps0 (M m c)) e k (by rw [hrow]; exact hw.1) (by rw [hrow]; exact hw.2), hrow, k0_arg0]

/-- The same for the book rows. -/
theorem B_apply (c : Dev nD) (hr : InRange m c) (e : Fin 2000000) (k : Fin 64) :
    (V m c main_v7 : S2007040x64.Idx → EReal) (ix2 (⟨e.val, by omega⟩ : Fin 2007040) k)
      = (m ((c : Thread nD τ).loc main_arg1) : S100000x64.Idx → EReal)
          (ix2 (rowOf ((m ((c : Thread nD τ).loc main_arg2) : S2x2000000.Idx → BitVec 32) (ix2 1 e))) k) := by
  show V0 m c (Proc.devRef .tc main_v7) _ = _
  rw [V0_eq, k7_v7, s6_pad]
  rw [pad_apply_of_inside ![0, 0] ![7040, 0] ![0, 0] _ _ pads_S2000000x64_S2007040x64_070400_000 h_S_
    (ix2 (⟨e.val, by omega⟩ : Fin 2007040) k) (ix2 e k) (fun a => by
      match a with
      | ⟨0, _⟩ => show e.val = 0 + e.val * (0 + 1); omega
      | ⟨1, _⟩ => show k.val = 0 + k.val * (0 + 1); omega)]
  rw [k5_v5, k4_v5, k3_v5]
  have hrow : (after hostOps0_1 (after hostOps0 (M m c)) (Proc.devRef .tc main_v3) : S2000000.Idx → BitVec 32) (ix1 e)
      = (m ((c : Thread nD τ).loc main_arg2) : S2x2000000.Idx → BitVec 32) (ix2 1 e) := by
    rw [k1_v3, s0_row1, edgeRow1_apply]
  have hw := wrap_in_table _ (hr (ix2 1 e)).1 (hr (ix2 1 e)).2
  rw [t1_apply (after hostOps0_1 (after hostOps0 (M m c))) e k (by rw [hrow]; exact hw.1) (by rw [hrow]; exact hw.2), hrow,
    k1_arg1, k0_arg1]

/-- The first staged weight array is the first half of W1, transposed. -/
theorem Wu_apply (c : Dev nD) (k j : Fin 64) :
    (V m c main_v10 : S64x64.Idx → EReal) (ix2 k j)
      = (m ((c : Thread nD τ).loc main_arg3) : S64x128.Idx → EReal) (ix2 j (colU k)) := by
  show V0 m c (Proc.devRef .tc main_v10) _ = _
  rw [V0_eq, s7_wu, k6_arg3, k5_arg3, k4_arg3, k3_arg3, k2_arg3, k1_arg3, k0_arg3]
  refine (truncf_apply _ bitsLt_bf16_f32 (ix2 k j)).trans ?_
  rw [transpose_apply [1, 0] _ transposes_S64x64_S64x64_1_0 (ix2 k j) (ix2 j k) (fun b => by
    match b with
    | ⟨0, _⟩ => rfl
    | ⟨1, _⟩ => rfl)]
  exact extractStridedSlice_apply ![0, 0] _ slices_S64x128_S64x64_0_0 (ix2 j k) (ix2 j (colU k)) (fun a => by
    match a with
    | ⟨0, _⟩ => show j.val = 0 + j.val; omega
    | ⟨1, _⟩ => show k.val = 0 + k.val; omega)

/-- The second is the second half, transposed. -/
theorem Wb_apply (c : Dev nD) (k j : Fin 64) :
    (V m c main_v13 : S64x64.Idx → EReal) (ix2 k j)
      = (m ((c : Thread nD τ).loc main_arg3) : S64x128.Idx → EReal) (ix2 j (colB k)) := by
  show V0 m c (Proc.devRef .tc main_v13) _ = _
  rw [V0_eq, s7_wb, k6_arg3, k5_arg3, k4_arg3, k3_arg3, k2_arg3, k1_arg3, k0_arg3]
  refine (truncf_apply _ bitsLt_bf16_f32 (ix2 k j)).trans ?_
  rw [transpose_apply [1, 0] _ transposes_S64x64_S64x64_1_0 (ix2 k j) (ix2 j k) (fun b => by
    match b with
    | ⟨0, _⟩ => rfl
    | ⟨1, _⟩ => rfl)]
  exact extractStridedSlice_apply ![0, 64] _ slices_S64x128_S64x64_0_64 (ix2 j k) (ix2 j (colB k)) (fun a => by
    match a with
    | ⟨0, _⟩ => show j.val = 0 + j.val; omega
    | ⟨1, _⟩ => show 64 + k.val = 64 + k.val; omega)

/-- The staged second-layer weights are W2's one row. -/
theorem W2_apply (c : Dev nD) (j : Fin 64) :
    (V m c main_v14 : S64.Idx → EReal) (ix1 j)
      = (m ((c : Thread nD τ).loc main_arg5) : S1x64.Idx → EReal) (ix2 0 j) := by
  show V0 m c (Proc.devRef .tc main_v14) _ = _
  rw [V0_eq, s7_w2, k6_arg5, k5_arg5, k4_arg5, k3_arg5, k2_arg5, k1_arg5, k0_arg5]
  exact shapeCast_apply _ shapeCasts_S1x64_S64 (ix1 j) (ix2 (0 : Fin 1) j) (by
    rw [Shape.rowMajor_val_two, Shape.rowMajor_val_one]; show 0 * 64 + j.val = j.val; omega)

end AtIdeal

end Cert.KernelIdeal.HostPrefix

end
-- ==== Proof.IndexRange.lean ====
/-
  The precondition's last conjunct, read back: every index word lies in [-100000, 100000).

  The precondition is a conjunction (bitwise "and" of one-bit words) whose last conjunct is the reduction by "and"
  over all 2 x 2000000 index words of (word >= -100000) and (word < 100000), the two bounds scalars laid over the
  array. That the whole is 1 gives the last conjunct 1; a reduction by "and" that is 1 had a 1 at every word; and a
  1 there is the two signed comparisons at that word.
-/
import proofs.«419149_j14474039787539_1_alg».proof.Pre_finite_inputs
import Idealize.ShloMosaic.Lib.ReduceAll
import Idealize.ShloMosaic.Lib.Affine
import Idealize.ShloMosaic.Lib.ValueIdx
import Idealize.ShloMosaic.Lib.Pipeline.Value

noncomputable section

namespace Cert.IndexRange

open Idealize.ShloMosaic Idealize.ShloMosaic.ValueIdx Cert.Pre_finite_inputs

variable [Cert.Pre_finite_inputs.Facts]
open Cert.Pre_finite_inputs.Facts

/-- The scalar shape has one index. -/
instance : Subsingleton S_.Idx := ⟨fun a b => funext fun d => d.elim0⟩

/-- Under the precondition, at any float instance, every index word passes both range comparisons. -/
theorem in_range {F : FTy → Type} [FloatOps F] (a0 a1 : FVec F S100000x64 .f32) (a2 : IVec S2x2000000 32)
    (a3 : FVec F S64x128 .f32) (a4 : FVec F S64 .f32) (a5 : FVec F S1x64 .f32) (a6 : FVec F S1 .f32)
    (h : Cert.Pre_finite_inputs.fn (F := F) a0 a1 a2 a3 a4 a5 a6 = fun _ => 1#1) (i : S2x2000000.Idx) :
    IntOp.cmpi .sge (a2 i) 4294867296#32 = 1#1 ∧ IntOp.cmpi .slt (a2 i) 100000#32 = 1#1 := by
  have h0 := congrFun h ix0
  dsimp only [fn, fn_part1, fn_part2] at h0
  -- the outermost conjunction's right side is the range test over every index word
  have h1 : Host.reduce IntOp.andi
      (andi (cmpi .sge a2 (broadcastInDim S2x2000000 ![] bcast_S_S2x2000000 (constantI S_ 32 4294867296#32)))
        (cmpi .slt a2 (broadcastInDim S2x2000000 ![] bcast_S_S2x2000000 (constantI S_ 32 100000#32))))
      (constantI S_ 1 1#1) reducesTo_S2x2000000_S_d0_1 h_S_ ix0 = 1#1 := (IntOp.andi_eq_one.1 h0).2
  -- a reduction by "and" that is 1 had a 1 at every word
  have h2 := Host.reduce_andi_all _ _ _ _ ix0 h1 i
  obtain ⟨h3, h4⟩ := IntOp.andi_eq_one.1 h2
  -- the two bounds are scalars laid over the whole array
  have b1 : broadcastInDim S2x2000000 ![] bcast_S_S2x2000000 (constantI S_ 32 4294867296#32) i = 4294867296#32 :=
    broadcastInDim_apply _ bcast_S_S2x2000000 _ i ix0 (fun a => a.elim0)
  have b2 : broadcastInDim S2x2000000 ![] bcast_S_S2x2000000 (constantI S_ 32 100000#32) i = 100000#32 :=
    broadcastInDim_apply _ bcast_S_S2x2000000 _ i ix0 (fun a => a.elim0)
  refine ⟨?_, ?_⟩
  · rw [← b1]; exact h3
  · rw [← b2]; exact h4

end Cert.IndexRange

end
-- ==== Proof.KernelRun.lean ====
/-
  The idealized kernel's run, read: under the precondition the returned array is the score of the arguments.

  The frame run leaves the region's padded result array at the row score of the staged arrays (PaddedResult), and the
  slice after the region returns its first 2000000 rows. Under the precondition every index word is in range
  (IndexRange), so the staged arrays are the gathered table rows, W1's transposed halves, b1, W2's row and b2
  (HostPrefix), and the row score of edge e is the edge's score (Spec: rowScore_eq_score). The argument arrays end
  unchanged, as the frame says.
-/
import proofs.«419149_j14474039787539_1_alg».proof.Defs
import proofs.«419149_j14474039787539_1_alg».proof.Proof.Gen.Pre_finite_inputs
import proofs.«419149_j14474039787539_1_alg».proof.Proof.PaddedResult
import proofs.«419149_j14474039787539_1_alg».proof.Proof.HostPrefix
import proofs.«419149_j14474039787539_1_alg».proof.Proof.IndexRange

noncomputable section

open Idealize.ShloMosaic Idealize.ShloMosaic.TcCoe Idealize.SL.Sem
open Idealize.ShloMosaic.Pipeline (Dat)

namespace Cert.KernelIdeal.RunValue

open Cert.KernelIdeal Cert.KernelIdeal.Gen Cert.EdgeScore Idealize.ShloMosaic.ValueIdx Cert.KernelIdeal.ArrValue
  Cert.KernelIdeal.HostPrefix

variable (m : (ℓ : Loc nD τ sig) → Buf (Elt Ideal) ℓ) (ρ : Dev nD → PrngReg)

/-- The score of device c's seven argument arrays. -/
abbrev scoreOf (c : Dev nD) : S2000000.Idx → EReal :=
  score (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- The precondition puts every index word in range. -/
theorem in_range_of_pre (hpre : Cert.Pre_KernelIdeal m) (c : Dev nD) : InRange m c := fun i =>
  Cert.IndexRange.in_range _ _ _ _ _ _ _ (hpre c) i

/-- The first 2000000 rows of the padded result are the scores. -/
theorem result_eq (c : Dev nD) (hr : InRange m c) :
    (extractStridedSlice S2000000 ![0] (padded m c) slices_S2007040_S2000000_0 : S2000000.Idx → EReal) = scoreOf m c := by
  funext i
  obtain ⟨e, rfl⟩ : ∃ e : Fin 2000000, i = ix1 e := ⟨i 0, eq_ix1 i⟩
  rw [extractStridedSlice_apply ![0] (padded m c) slices_S2007040_S2000000_0 (ix1 e)
    (ix1 (⟨e.val, by omega⟩ : Fin 2007040)) (fun a => by
      match a with
      | ⟨0, _⟩ => show e.val = 0 + e.val; omega)]
  unfold padded
  exact rowScore_eq_score _ _ _ _ _ _ _ (aU m c) (aB m c) (aWu m c) (aWb m c) (aC1 m c) (aW2 m c) (aC2 m c) e
    (U_apply m c hr e) (B_apply m c hr e) (Wu_apply m c) (Wb_apply m c) (V_main_arg4 m c) (W2_apply m c) (V_main_arg6 m c)

/-- Under the precondition every weakly fair execution of the idealized kernel terminates with the returned array at
    the score and the arguments unchanged. -/
theorem run (hpre : Cert.Pre_KernelIdeal m) :
    θ_run defs (onTc (τ := τ) (main (F := Ideal))) ⟨m, fun _ => 0, ρ⟩ (fun r => ∀ c : Dev nD,
      r.2.mem ((c.tc : Thread nD τ).loc main_v16) = scoreOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)) :=
  (θ_run defs _ _).mono (fun _ h c => ⟨
      ((h c).2 main_v16 (Pipeline.mem_restRefs_of main_v16 (by decide) (by decide))).trans
        ((tail_eq m c).trans (result_eq m c (in_range_of_pre m hpre c))),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).1 4).trans (((dats m 0 c).arrAt_in 4 rfl _).trans ((A_eq m c 4).trans (V_main_arg4 m c))),
      ((h c).2 main_arg5 (Pipeline.mem_restRefs_of main_arg5 (by decide) (by decide))).trans (W_main_arg5 m (dats m) c),
      ((h c).1 6).trans (((dats m 0 c).arrAt_in 6 rfl _).trans ((A_eq m c 6).trans (V_main_arg6 m c)))⟩)
    (run_main m ρ)

end Cert.KernelIdeal.RunValue

end
-- ==== Proof.RefValue.lean ====
/-
  The reference computes the score (Spec: score).

  Read one operation at a time: an index row is a slice of the index array reshaped to a vector; the wrapped word
  is the select of (word < 0), word + 100000, word; the gathered row is the table's row at that word read signed and
  kept inside the table; the two gathered arrays are laid side by side into rows of 128 entries; the first dense layer
  is the sum over 128 columns against W1 transposed, which is the sum over the first 64 columns (the user row) plus the
  sum over the last 64 (the book row); then the bias, the cut at zero, the second layer's 64-term sum and its bias.
-/
import proofs.«419149_j14474039787539_1_alg».proof.Proof.Gen.ReferenceIdeal.Read
import proofs.«419149_j14474039787539_1_alg».proof.Proof.Spec
import proofs.«419149_j14474039787539_1_alg».proof.Proof.LibGather
import Idealize.ShloMosaic.Lib.Pipeline.Value
import Idealize.ShloMosaic.Lib.StableHlo.Predicate

noncomputable section

open Idealize.ShloMosaic Idealize.ShloMosaic.TcCoe

namespace Cert.ReferenceIdeal.RefValue

open Cert.ReferenceIdeal Cert.ReferenceIdeal.Gen Cert.ReferenceIdeal.Read Cert.EdgeScore Idealize.ShloMosaic.ValueIdx
  Idealize.ShloMosaic.StableHlo.Predicate

variable (x0 x1 : FVec Ideal S100000x64 .f32) (x2 : IVec S2x2000000 32) (x3 : FVec Ideal S64x128 .f32)
  (x4 : FVec Ideal S64 .f32) (x5 : FVec Ideal S1x64 .f32) (x6 : FVec Ideal S1 .f32)

/-- Row 0 of the index array, as a vector, at e. -/
theorem row0_apply (e : Fin 2000000) : val_main_v1 (F := Ideal) x2 (ix1 e) = x2 (ix2 0 e) := by
  rw [val_main_v1_apply, val_main_v0_apply]
  refine congrArg x2 (funext fun a => Fin.ext ?_)
  match a with
  | ⟨0, _⟩ => rfl
  | ⟨1, _⟩ => exact Nat.mod_eq_of_lt e.isLt

/-- Row 1 of the index array, as a vector, at e. -/
theorem row1_apply (e : Fin 2000000) : val_main_v3 (F := Ideal) x2 (ix1 e) = x2 (ix2 1 e) := by
  rw [val_main_v3_apply, val_main_v2_apply]
  refine congrArg x2 (funext fun a => Fin.ext ?_)
  match a with
  | ⟨0, _⟩ => rfl
  | ⟨1, _⟩ => exact Nat.mod_eq_of_lt e.isLt

/-- The user index after the wrap of a negative index. -/
theorem wrap0_apply (e : Fin 2000000) : val_main_v8 (F := Ideal) x2 (ix1 e) = wrapWord (x2 (ix2 0 e)) := by
  rw [val_main_v8_apply, val_main_v5_apply, val_main_v7_apply, val_main_v4_apply, val_main_v6_apply, val_main_c_apply,
    val_main_c_0_apply, row0_apply]
  rfl

/-- The book index after the wrap. -/
theorem wrap1_apply (e : Fin 2000000) : val_main_v15 (F := Ideal) x2 (ix1 e) = wrapWord (x2 (ix2 1 e)) := by
  rw [val_main_v15_apply, val_main_v12_apply, val_main_v14_apply, val_main_v11_apply, val_main_v13_apply, val_main_c_1_apply,
    val_main_c_2_apply, row1_apply]
  rfl

/-- The same as a column of start indices. -/
theorem col0_apply (e : Fin 2000000) : val_main_v9 (F := Ideal) x2 (ixP e) = wrapWord (x2 (ix2 0 e)) := by
  rw [val_main_v9_apply]
  exact (congrArg (val_main_v8 (F := Ideal) x2) (funext fun a => by match a with | ⟨0, _⟩ => rfl)).trans (wrap0_apply x2 e)

/-- The same as a column of start indices. -/
theorem col1_apply (e : Fin 2000000) : val_main_v16 (F := Ideal) x2 (ixP e) = wrapWord (x2 (ix2 1 e)) := by
  rw [val_main_v16_apply]
  exact (congrArg (val_main_v15 (F := Ideal) x2) (funext fun a => by match a with | ⟨0, _⟩ => rfl)).trans (wrap1_apply x2 e)

/-- The gathered user row of edge e, at column k. -/
theorem userRow_apply (e : Fin 2000000) (k : Fin 64) :
    val_main_v10 (F := Ideal) x0 x2 (ix2 e k) = x0 (ix2 (rowOf (x2 (ix2 0 e))) k) := by
  unfold val_main_v10
  refine (LibGather.gather_rows_apply (N := 100000) (M := 2000000) (C := 64) (by decide)
    gather_S100000x64_S2000000x1_S2000000x64_1_0_n_n_0_1_164_wf x0 (val_main_v9 (F := Ideal) x2) e k).trans ?_
  unfold rowOf
  simp only [col0_apply]

/-- The gathered book row of edge e, at column k. -/
theorem bookRow_apply (e : Fin 2000000) (k : Fin 64) :
    val_main_v17 (F := Ideal) x1 x2 (ix2 e k) = x1 (ix2 (rowOf (x2 (ix2 1 e))) k) := by
  unfold val_main_v17
  refine (LibGather.gather_rows_apply (N := 100000) (M := 2000000) (C := 64) (by decide)
    gather_S100000x64_S2000000x1_S2000000x64_1_0_n_n_0_1_164_wf x1 (val_main_v16 (F := Ideal) x2) e k).trans ?_
  unfold rowOf
  simp only [col1_apply]

/-- The first 64 columns of the joined row are the user row. -/
theorem catU_apply (e : Fin 2000000) (k : Fin 64) :
    val_main_v18 (F := Ideal) x0 x1 x2 (ix2 e (colU k)) = val_main_v10 (F := Ideal) x0 x2 (ix2 e k) := by
  unfold val_main_v18
  exact concatenate_pair_apply_left (t := S2000000x128) (s₁ := S2000000x64) (s₂ := S2000000x64) (1 : Fin 2)
    (val_main_v10 (F := Ideal) x0 x2) (val_main_v17 (F := Ideal) x1 x2) concatenates_S2000000x64_S2000000x64_S2000000x128_d1
    (ix2 e (colU k)) rfl (ix2 e k) (fun b => by match b with | ⟨0, _⟩ => rfl | ⟨1, _⟩ => rfl)

/-- The last 64 columns are the book row. -/
theorem catB_apply (e : Fin 2000000) (k : Fin 64) :
    val_main_v18 (F := Ideal) x0 x1 x2 (ix2 e (colB k)) = val_main_v17 (F := Ideal) x1 x2 (ix2 e k) := by
  unfold val_main_v18
  exact concatenate_pair_apply_right (t := S2000000x128) (s₁ := S2000000x64) (s₂ := S2000000x64) (1 : Fin 2)
    (val_main_v10 (F := Ideal) x0 x2) (val_main_v17 (F := Ideal) x1 x2) concatenates_S2000000x64_S2000000x64_S2000000x128_d1
    (ix2 e (colB k)) rfl rfl (ix2 e k) (fun b hb => by match b with | ⟨0, _⟩ => rfl | ⟨1, _⟩ => exact absurd rfl hb)
    (by show k.val + 64 = 64 + k.val; omega)

/-- W1 transposed. -/
theorem w1T_apply (k : Fin 128) (j : Fin 64) : val_main_v19 (F := Ideal) x3 (ix2 k j) = x3 (ix2 j k) := by
  rw [val_main_v19_apply]
  exact congrArg x3 (funext fun a => by match a with | ⟨0, _⟩ => rfl | ⟨1, _⟩ => rfl)

/-- The first dense layer at (e, j): the 128-term sum as its two halves. -/
theorem dense1_apply (e : Fin 2000000) (j : Fin 64) :
    val_main_v20 (F := Ideal) x0 x1 x2 x3 (ix2 e j)
      = ∑ k : Fin 64, x0 (ix2 (rowOf (x2 (ix2 0 e))) k) * x3 (ix2 j (colU k))
        + ∑ k : Fin 64, x1 (ix2 (rowOf (x2 (ix2 1 e))) k) * x3 (ix2 j (colB k)) := by
  rw [val_main_v20_apply, sum_halves]
  refine congrArg₂ (· + ·) (Finset.sum_congr rfl fun k _ => ?_) (Finset.sum_congr rfl fun k _ => ?_)
  · have el : lidx_main_v20 (ix2 e j) (colU k) = ix2 e (colU k) :=
      funext fun a => by match a with | ⟨0, _⟩ => rfl | ⟨1, _⟩ => rfl
    have er : ridx_main_v20 (ix2 e j) (colU k) = ix2 (colU k) j :=
      funext fun a => by match a with | ⟨0, _⟩ => rfl | ⟨1, _⟩ => rfl
    rw [el, er, catU_apply, userRow_apply, w1T_apply]
  · have el : lidx_main_v20 (ix2 e j) (colB k) = ix2 e (colB k) :=
      funext fun a => by match a with | ⟨0, _⟩ => rfl | ⟨1, _⟩ => rfl
    have er : ridx_main_v20 (ix2 e j) (colB k) = ix2 (colB k) j :=
      funext fun a => by match a with | ⟨0, _⟩ => rfl | ⟨1, _⟩ => rfl
    rw [el, er, catB_apply, bookRow_apply, w1T_apply]

/-- The first bias laid over the rows. -/
theorem bias1_apply (e : Fin 2000000) (j : Fin 64) : val_main_v22 (F := Ideal) x4 (ix2 e j) = x4 (ix1 j) := by
  rw [val_main_v22_apply, val_main_v21_apply]
  exact congrArg x4 (funext fun a => by match a with | ⟨0, _⟩ => rfl)

/-- The hidden unit after the cut at zero. -/
theorem hidden_apply (e : Fin 2000000) (j : Fin 64) :
    val_main_v24 (F := Ideal) x0 x1 x2 x3 x4 (ix2 e j) = hiddenUnit x0 x1 x2 x3 x4 e j := by
  rw [val_main_v24_apply, val_main_v23_apply, dense1_apply, bias1_apply, val_main_call0_v0_apply, val_main_call0_cst_apply]
  unfold hiddenUnit
  show max (_ + _) (Ideal.ofBits .f32 0x00000000#32) = _
  rw [Ideal.ofBits_zero_f32]

/-- W2 transposed. -/
theorem w2T_apply (k : Fin 64) : val_main_v25 (F := Ideal) x5 (ix2 k (0 : Fin 1)) = x5 (ix2 0 k) := by
  rw [val_main_v25_apply]
  exact congrArg x5 (funext fun a => by match a with | ⟨0, _⟩ => rfl | ⟨1, _⟩ => rfl)

/-- The second bias laid over the rows. -/
theorem bias2_apply (e : Fin 2000000) : val_main_v28 (F := Ideal) x6 (ixP e) = x6 (ix1 0) := by
  rw [val_main_v28_apply, val_main_v27_apply]
  exact congrArg x6 (funext fun a => by match a with | ⟨0, _⟩ => rfl)

/-- The reference's result at edge e is the score. -/
theorem score_apply (e : Fin 2000000) :
    val_main_v30 (F := Ideal) x0 x1 x2 x3 x4 x5 x6 (ix1 e) = score x0 x1 x2 x3 x4 x5 x6 (ix1 e) := by
  have hi : idx_main_v30 (ix1 e) = ixP e := funext fun a => by
    match a with
    | ⟨0, _⟩ => exact Fin.ext (Nat.div_one _)
    | ⟨1, _⟩ => rfl
  rw [val_main_v30_apply, hi, val_main_v29_apply, val_main_v26_apply, bias2_apply]
  unfold score
  show (∑ k : Fin 64, _) + _ = _
  refine congrArg₂ (· + ·) (Finset.sum_congr rfl fun k _ => ?_) rfl
  have el : lidx_main_v26 (ixP e) k = ix2 e k := funext fun a => by match a with | ⟨0, _⟩ => rfl | ⟨1, _⟩ => rfl
  have er : ridx_main_v26 (ixP e) k = ix2 k (0 : Fin 1) := funext fun a => by match a with | ⟨0, _⟩ => rfl | ⟨1, _⟩ => rfl
  rw [el, er, hidden_apply, w2T_apply]

/-- The reference's result stage is the score. -/
theorem result_eq : val_main_v30 (F := Ideal) x0 x1 x2 x3 x4 x5 x6 = score x0 x1 x2 x3 x4 x5 x6 :=
  funext fun i => by rw [eq_ix1 i]; exact score_apply x0 x1 x2 x3 x4 x5 x6 (i 0)

end Cert.ReferenceIdeal.RefValue

end
-- ==== Proof.lean ====
/-
  The edge decoder: a Pallas kernel that scores 2000000 edges by a two-layer perceptron over the two embedding rows an
  edge names, against the jnp reference, as extended reals.

  Both programs compute, for edge e with user row U and book row B,
      sum_j relu( sum_k U[k] W1[j,k] + sum_k B[k] W1[j,64+k] + b1[j] ) * W2[0,j] + b2[0]          (Proof/Spec.lean).
  The reference joins the two rows into one of 128 entries and sums over all 128 columns of W1 (Proof/RefValue.lean);
  the kernel gathers the rows on the host, pads them to a whole number of blocks of 8192 rows, sums the two halves
  apart in each block and slices the padding off again (Proof/Block.lean, Proof/PaddedResult.lean,
  Proof/HostPrefix.lean, Proof/KernelRun.lean). A sum over 128 columns is the sum over its two halves: no finiteness
  is used. The kernel's gather fills a row with a constant where an index is outside the table and the reference's
  does not, so the claim is stated for index words in [-100000, 100000) (a negative index wraps, as in both programs),
  the range in which the reference indexes inside its tables (Proof/IndexRange.lean reads that conjunct back).
  The two kernel frames are the generated ones; the reference's frame is its generated run with the result dropped;
  the ideal pass rewrote nothing, so there is nothing to preserve.
-/
import proofs.«419149_j14474039787539_1_alg».proof.Defs
import proofs.«419149_j14474039787539_1_alg».proof.Proof.Gen.Kernel
import proofs.«419149_j14474039787539_1_alg».proof.Proof.Gen.Kernel.Skeleton
import proofs.«419149_j14474039787539_1_alg».proof.Proof.Gen.Kernel.Launch
import proofs.«419149_j14474039787539_1_alg».proof.Proof.Gen.Kernel.Points
import proofs.«419149_j14474039787539_1_alg».proof.Proof.Gen.Kernel.Frame
import proofs.«419149_j14474039787539_1_alg».proof.Proof.Gen.KernelIdeal
import proofs.«419149_j14474039787539_1_alg».proof.Proof.Gen.KernelIdeal.Skeleton
import proofs.«419149_j14474039787539_1_alg».proof.Proof.Gen.KernelIdeal.Launch
import proofs.«419149_j14474039787539_1_alg».proof.Proof.Gen.KernelIdeal.Points
import proofs.«419149_j14474039787539_1_alg».proof.Proof.Gen.KernelIdeal.Frame
import proofs.«419149_j14474039787539_1_alg».proof.Proof.Gen.ReferenceIdeal
import proofs.«419149_j14474039787539_1_alg».proof.Proof.Gen.ReferenceIdeal.Run
import proofs.«419149_j14474039787539_1_alg».proof.Proof.Gen.ReferenceIdeal.Read
import proofs.«419149_j14474039787539_1_alg».proof.Proof.Gen.Pre_finite_inputs
import proofs.«419149_j14474039787539_1_alg».proof.Proof.KernelRun
import proofs.«419149_j14474039787539_1_alg».proof.Proof.RefValue
import Idealize.ShloMosaic.Adequacy
import Idealize.ShloMosaic.Init

noncomputable section

namespace Cert.Proof

open Idealize.ShloMosaic Idealize.SL.Sem

/-- The reference runs and keeps its arguments: its generated run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on the arguments both programs end at the score of those arguments. -/
theorem algebraic : Cert.algebraic_KernelIdeal_ReferenceIdeal := by
  intro m ρ m' ρ' hpre hagree
  refine ⟨fun c => Cert.KernelIdeal.RunValue.scoreOf m c, Cert.KernelIdeal.RunValue.run m ρ hpre, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6⟩ := hagree c
  rw [Cert.ReferenceIdeal.Read.val_main_v30_eq, Cert.ReferenceIdeal.RefValue.result_eq, h0, h1, h2, h3, h4, h5, h6]

theorem claim : Cert.Claim := ⟨Cert.Kernel.Gen.facts, Cert.KernelIdeal.Gen.facts, Cert.ReferenceIdeal.Gen.facts, Cert.Pre_finite_inputs.Gen.facts,
  fun m ρ _ => Cert.Kernel.Gen.frame m ρ,
  fun m ρ _ => Cert.KernelIdeal.Gen.frame m ρ,
  frame_reference,
  trivial,
  algebraic⟩

end Cert.Proof

end
